-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x2 : Shape := ⟨2, ![500000, 2]⟩
abbrev S16000000x3 : Shape := ⟨2, ![16000000, 3]⟩
abbrev S2x16000000 : Shape := ⟨2, ![2, 16000000]⟩
abbrev S1x16000000 : Shape := ⟨2, ![1, 16000000]⟩
abbrev S16000000 : Shape := ⟨1, ![16000000]⟩
abbrev S16000000x1 : Shape := ⟨2, ![16000000, 1]⟩
abbrev S_ : Shape := ⟨0, ![]⟩
abbrev S500000 : Shape := ⟨1, ![500000]⟩

class Facts : Prop where
  slices_S2x16000000_S1x16000000_0_0 : S2x16000000.Slices ![0, 0] S1x16000000
  shapeCasts_S1x16000000_S16000000 : S1x16000000.ShapeCasts S16000000
  slices_S16000000x3_S16000000x1_0_0 : S16000000x3.Slices ![0, 0] S16000000x1
  shapeCasts_S16000000x1_S16000000 : S16000000x1.ShapeCasts S16000000
  slices_S16000000x3_S16000000x1_0_1 : S16000000x3.Slices ![0, 1] S16000000x1
  slices_S16000000x3_S16000000x1_0_2 : S16000000x3.Slices ![0, 2] S16000000x1
  bcast_S_S500000 : S_.BroadcastsInDim S500000 (![] : Fin 0 → Fin S500000.rank)
  bcast_S16000000_S16000000x1_0 : S16000000.BroadcastsInDim S16000000x1 (![0] : Fin 1 → Fin S16000000x1.rank)
  bcast_S_S500000x2 : S_.BroadcastsInDim S500000x2 (![] : Fin 0 → Fin S500000x2.rank)
  reducesTo_S500000x2_S_d0_1 : S500000x2.ReducesTo [0, 1] S_
  h_S_ : 0 < S_.numel
  bcast_S_S16000000x3 : S_.BroadcastsInDim S16000000x3 (![] : Fin 0 → Fin S16000000x3.rank)
  reducesTo_S16000000x3_S_d0_1 : S16000000x3.ReducesTo [0, 1] S_
  bcast_S_S16000000 : S_.BroadcastsInDim S16000000 (![] : Fin 0 → Fin S16000000.rank)
  reducesTo_S16000000_S_d0 : S16000000.ReducesTo [0] S_
  scatter_S500000_S16000000x1_S16000000_n_0_0_1_wf : ScatterDims.WF S500000 S16000000x1 S16000000 [] [0] [0] 1
  gather_S500000_S16000000x1_S16000000_n_0_n_n_0_1_1_wf : GatherDims.WF S500000 S16000000x1 S16000000 [] [0] [] [0] [] 1 ![1]

variable [Facts]

def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def fn_part2 {F : FTy → Type} [FloatOps F] (main_v28 : IVec S_ 1) (main_v35 : FVec F S16000000 .f32) (main_v36 : FVec F S16000000 .f32) : IVec S_ 1 :=
  let main_v37 : IVec S16000000 1 := cmpf .une main_v35 main_v36
  let main_c_9 : IVec S_ 1 := constantI S_ 1 1#1
  let main_v38 : IVec S_ 1 := (fun x v => Host.reduce IntOp.andi x v reducesTo_S16000000_S_d0 h_S_) main_v37 main_c_9
  let main_v39 : IVec S_ 1 := andi main_v28 main_v38
  main_v39

def fn_part1 {F : FTy → Type} [FloatOps F] (main_v1 : IVec S16000000 32) (main_v12 : FVec F S500000 .f32) (main_v16 : IVec S_ 1) (main_v19 : IVec S16000000x3 1) : IVec S_ 1 :=
  let main_c_2 : IVec S_ 1 := constantI S_ 1 1#1
  let main_v20 : IVec S_ 1 := (fun x v => Host.reduce IntOp.andi x v reducesTo_S16000000x3_S_d0_1 h_S_) main_v19 main_c_2
  let main_v21 : IVec S_ 1 := andi main_v16 main_v20
  let main_c_3 : IVec S_ 32 := constantI S_ 32 0#32
  let main_v22 : IVec S16000000 32 := broadcastInDim S16000000 ![] bcast_S_S16000000 main_c_3
  let main_v23 : IVec S16000000 1 := cmpi .sge main_v1 main_v22
  let main_c_4 : IVec S_ 32 := constantI S_ 32 500000#32
  let main_v24 : IVec S16000000 32 := broadcastInDim S16000000 ![] bcast_S_S16000000 main_c_4
  let main_v25 : IVec S16000000 1 := cmpi .slt main_v1 main_v24
  let main_v26 : IVec S16000000 1 := andi main_v23 main_v25
  let main_c_5 : IVec S_ 1 := constantI S_ 1 1#1
  let main_v27 : IVec S_ 1 := (fun x v => Host.reduce IntOp.andi x v reducesTo_S16000000_S_d0 h_S_) main_v26 main_c_5
  let main_v28 : IVec S_ 1 := andi main_v21 main_v27
  let main_c_6 : IVec S_ 32 := constantI S_ 32 0#32
  let main_v29 : IVec S16000000 32 := broadcastInDim S16000000 ![] bcast_S_S16000000 main_c_6
  let main_v30 : IVec S16000000 1 := cmpi .slt main_v1 main_v29
  let main_c_7 : IVec S_ 32 := constantI S_ 32 500000#32
  let main_v31 : IVec S16000000 32 := broadcastInDim S16000000 ![] bcast_S_S16000000 main_c_7
  let main_v32 : IVec S16000000 32 := addi main_v1 main_v31
  let main_v33 : IVec S16000000 32 := select main_v30 main_v32 main_v1
  let main_v34 : IVec S16000000x1 32 := broadcastInDim S16000000x1 ![0] bcast_S16000000_S16000000x1_0 main_v33
  let main_v35 : FVec F S16000000 .f32 := (fun x i => Host.gather gather_S500000_S16000000x1_S16000000_n_0_n_n_0_1_1 x i) main_v12 main_v34
  let main_cst_8 : FVec F S_ .f32 := constant S_ .f32 0x00000000#32
  let main_v36 : FVec F S16000000 .f32 := broadcastInDim S16000000 ![] bcast_S_S16000000 main_cst_8
  fn_part2 (F := F) main_v28 main_v35 main_v36

def fn {F : FTy → Type} [FloatOps F] (main_arg0 : FVec F S500000x2 .f32) (main_arg1 : FVec F S16000000x3 .f32) (main_arg2 : IVec S2x16000000 32) : IVec S_ 1 :=
  let main_v0 : IVec S1x16000000 32 := (extractStridedSlice S1x16000000 ![0, 0] · slices_S2x16000000_S1x16000000_0_0) main_arg2
  let main_v1 : IVec S16000000 32 := shapeCast S16000000 main_v0 shapeCasts_S1x16000000_S16000000
  let main_v2 : FVec F S16000000x1 .f32 := (extractStridedSlice S16000000x1 ![0, 0] · slices_S16000000x3_S16000000x1_0_0) main_arg1
  let main_v3 : FVec F S16000000 .f32 := shapeCast S16000000 main_v2 shapeCasts_S16000000x1_S16000000
  let main_v4 : FVec F S16000000x1 .f32 := (extractStridedSlice S16000000x1 ![0, 1] · slices_S16000000x3_S16000000x1_0_1) main_arg1
  let main_v5 : FVec F S16000000 .f32 := shapeCast S16000000 main_v4 shapeCasts_S16000000x1_S16000000
  let main_v6 : FVec F S16000000 .f32 := mulf main_v3 main_v5
  let main_v7 : FVec F S16000000x1 .f32 := (extractStridedSlice S16000000x1 ![0, 2] · slices_S16000000x3_S16000000x1_0_2) main_arg1
  let main_v8 : FVec F S16000000 .f32 := shapeCast S16000000 main_v7 shapeCasts_S16000000x1_S16000000
  let main_v9 : FVec F S16000000 .f32 := mulf main_v6 main_v8
  let main_cst : FVec F S_ .f32 := constant S_ .f32 0x00000000#32
  let main_v10 : FVec F S500000 .f32 := broadcastInDim S500000 ![] bcast_S_S500000 main_cst
  let main_v11 : IVec S16000000x1 32 := broadcastInDim S16000000x1 ![0] bcast_S16000000_S16000000x1_0 main_v1
  let main_v12 : FVec F S500000 .f32 := (fun x i u => Host.scatterAdd scatter_S500000_S16000000x1_S16000000_n_0_0_1 x i u) main_v10 main_v11 main_v9
  let main_v13 : FVec F S500000x2 .f32 := Host.absf main_arg0
  let main_cst_0 : FVec F S_ .f32 := constant S_ .f32 0x7F800000#32
  let main_v14 : FVec F S500000x2 .f32 := broadcastInDim S500000x2 ![] bcast_S_S500000x2 main_cst_0
  let main_v15 : IVec S500000x2 1 := cmpf .olt main_v13 main_v14
  let main_c : IVec S_ 1 := constantI S_ 1 1#1
  let main_v16 : IVec S_ 1 := (fun x v => Host.reduce IntOp.andi x v reducesTo_S500000x2_S_d0_1 h_S_) main_v15 main_c
  let main_v17 : FVec F S16000000x3 .f32 := Host.absf main_arg1
  let main_cst_1 : FVec F S_ .f32 := constant S_ .f32 0x7F800000#32
  let main_v18 : FVec F S16000000x3 .f32 := broadcastInDim S16000000x3 ![] bcast_S_S16000000x3 main_cst_1
  let main_v19 : IVec S16000000x3 1 := cmpf .olt main_v17 main_v18
  fn_part1 (F := F) main_v1 main_v12 main_v16 main_v19
-- ==== Kernel.lean ====
abbrev S500000x2 : Shape := ⟨2, ![500000, 2]⟩
abbrev S16000000x3 : Shape := ⟨2, ![16000000, 3]⟩
abbrev S2x16000000 : Shape := ⟨2, ![2, 16000000]⟩
abbrev S1x16000000 : Shape := ⟨2, ![1, 16000000]⟩
abbrev S16000000 : Shape := ⟨1, ![16000000]⟩
abbrev S16000000x1 : Shape := ⟨2, ![16000000, 1]⟩
abbrev S16000000x2 : Shape := ⟨2, ![16000000, 2]⟩
abbrev S_ : Shape := ⟨0, ![]⟩
abbrev S500000x1 : Shape := ⟨2, ![500000, 1]⟩
abbrev S500000 : Shape := ⟨1, ![500000]⟩
abbrev S1 : Shape := ⟨1, ![1]⟩
abbrev S1x1 : Shape := ⟨2, ![1, 1]⟩
abbrev S125000x128 : Shape := ⟨2, ![125000, 128]⟩
abbrev S5000x128 : Shape := ⟨2, ![5000, 128]⟩

abbrev nBuf : Space → Nat
  | .hbm => 68
  | .vmem => 6
  | .smem => 0
  | _ => 0

abbrev bufTy : (tb : Table) → Fin (tcTables nBuf tb) → BufTy
  | .hbm, ⟨0, _⟩ => ⟨S500000x2, .f32⟩
  | .hbm, ⟨1, _⟩ => ⟨S16000000x3, .f32⟩
  | .hbm, ⟨2, _⟩ => ⟨S2x16000000, .i32⟩
  | .hbm, ⟨3, _⟩ => ⟨S1x16000000, .i32⟩
  | .hbm, ⟨4, _⟩ => ⟨S16000000, .i32⟩
  | .hbm, ⟨5, _⟩ => ⟨S16000000x1, .f32⟩
  | .hbm, ⟨6, _⟩ => ⟨S16000000, .f32⟩
  | .hbm, ⟨7, _⟩ => ⟨S16000000x1, .f32⟩
  | .hbm, ⟨8, _⟩ => ⟨S16000000, .f32⟩
  | .hbm, ⟨9, _⟩ => ⟨S16000000x1, .f32⟩
  | .hbm, ⟨10, _⟩ => ⟨S16000000, .f32⟩
  | .hbm, ⟨11, _⟩ => ⟨S16000000, .f32⟩
  | .hbm, ⟨12, _⟩ => ⟨S16000000, .f32⟩
  | .hbm, ⟨13, _⟩ => ⟨S16000000x1, .f32⟩
  | .hbm, ⟨14, _⟩ => ⟨S16000000x1, .f32⟩
  | .hbm, ⟨15, _⟩ => ⟨S16000000x2, .f32⟩
  | .hbm, ⟨16, _⟩ => ⟨S_, .f32⟩
  | .hbm, ⟨17, _⟩ => ⟨S500000x2, .f32⟩
  | .hbm, ⟨18, _⟩ => ⟨S16000000x1, .i32⟩
  | .hbm, ⟨19, _⟩ => ⟨S500000x2, .f32⟩
  | .hbm, ⟨20, _⟩ => ⟨S500000x1, .f32⟩
  | .hbm, ⟨21, _⟩ => ⟨S500000, .f32⟩
  | .hbm, ⟨22, _⟩ => ⟨S500000x1, .f32⟩
  | .hbm, ⟨23, _⟩ => ⟨S500000, .f32⟩
  | .hbm, ⟨24, _⟩ => ⟨S_, .f32⟩
  | .hbm, ⟨25, _⟩ => ⟨S500000, .f32⟩
  | .hbm, ⟨26, _⟩ => ⟨S500000, .i1⟩
  | .hbm, ⟨27, _⟩ => ⟨S_, .f32⟩
  | .hbm, ⟨28, _⟩ => ⟨S_, .f32⟩
  | .hbm, ⟨29, _⟩ => ⟨S500000, .f32⟩
  | .hbm, ⟨30, _⟩ => ⟨S500000, .f32⟩
  | .hbm, ⟨31, _⟩ => ⟨S500000, .f32⟩
  | .hbm, ⟨32, _⟩ => ⟨S500000x1, .f32⟩
  | .hbm, ⟨33, _⟩ => ⟨S500000, .f32⟩
  | .hbm, ⟨34, _⟩ => ⟨S500000x1, .f32⟩
  | .hbm, ⟨35, _⟩ => ⟨S500000, .f32⟩
  | .hbm, ⟨36, _⟩ => ⟨S500000, .f32⟩
  | .hbm, ⟨37, _⟩ => ⟨S_, .f32⟩
  | .hbm, ⟨38, _⟩ => ⟨S500000, .f32⟩
  | .hbm, ⟨39, _⟩ => ⟨S500000, .f32⟩
  | .hbm, ⟨40, _⟩ => ⟨S500000, .f32⟩
  | .hbm, ⟨41, _⟩ => ⟨S500000, .f32⟩
  | .hbm, ⟨42, _⟩ => ⟨S_, .i32⟩
  | .hbm, ⟨43, _⟩ => ⟨S16000000, .i32⟩
  | .hbm, ⟨44, _⟩ => ⟨S16000000, .i1⟩
  | .hbm, ⟨45, _⟩ => ⟨S_, .i32⟩
  | .hbm, ⟨46, _⟩ => ⟨S16000000, .i32⟩
  | .hbm, ⟨47, _⟩ => ⟨S16000000, .i32⟩
  | .hbm, ⟨48, _⟩ => ⟨S16000000, .i32⟩
  | .hbm, ⟨49, _⟩ => ⟨S16000000x1, .i32⟩
  | .hbm, ⟨50, _⟩ => ⟨S1, .i32⟩
  | .hbm, ⟨51, _⟩ => ⟨S_, .i32⟩
  | .hbm, ⟨52, _⟩ => ⟨S16000000x1, .i32⟩
  | .hbm, ⟨53, _⟩ => ⟨S16000000x1, .i1⟩
  | .hbm, ⟨54, _⟩ => ⟨S1x1, .i32⟩
  | .hbm, ⟨55, _⟩ => ⟨S16000000x1, .i32⟩
  | .hbm, ⟨56, _⟩ => ⟨S16000000x1, .i1⟩
  | .hbm, ⟨57, _⟩ => ⟨S16000000x1, .i1⟩
  | .hbm, ⟨58, _⟩ => ⟨S_, .i1⟩
  | .hbm, ⟨59, _⟩ => ⟨S16000000, .i1⟩
  | .hbm, ⟨60, _⟩ => ⟨S16000000, .f32⟩
  | .hbm, ⟨61, _⟩ => ⟨S_, .f32⟩
  | .hbm, ⟨62, _⟩ => ⟨S16000000, .f32⟩
  | .hbm, ⟨63, _⟩ => ⟨S16000000, .f32⟩
  | .hbm, ⟨64, _⟩ => ⟨S125000x128, .f32⟩
  | .hbm, ⟨65, _⟩ => ⟨S125000x128, .f32⟩
  | .hbm, ⟨66, _⟩ => ⟨S125000x128, .f32⟩
  | .hbm, ⟨67, _⟩ => ⟨S16000000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | _, _ => ⟨S500000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_cst : Ref sig .tc := ⟨.hbm, 16, rfl⟩
abbrev main_call0_v13 : Ref sig .tc := ⟨.hbm, 17, rfl⟩
abbrev main_call0_v14 : Ref sig .tc := ⟨.hbm, 18, rfl⟩
abbrev main_call0_v15 : Ref sig .tc := ⟨.hbm, 19, rfl⟩
abbrev main_call0_v16 : Ref sig .tc := ⟨.hbm, 20, rfl⟩
abbrev main_call0_v17 : Ref sig .tc := ⟨.hbm, 21, rfl⟩
abbrev main_call0_v18 : Ref sig .tc := ⟨.hbm, 22, rfl⟩
abbrev main_call0_v19 : Ref sig .tc := ⟨.hbm, 23, rfl⟩
abbrev main_call0_cst_0 : Ref sig .tc := ⟨.hbm, 24, rfl⟩
abbrev main_call0_v20 : Ref sig .tc := ⟨.hbm, 25, rfl⟩
abbrev main_call0_v21 : Ref sig .tc := ⟨.hbm, 26, rfl⟩
abbrev main_call0_cst_1 : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_v22 : Ref sig .tc := ⟨.hbm, 30, rfl⟩
abbrev main_call0_v23 : Ref sig .tc := ⟨.hbm, 31, rfl⟩
abbrev main_call0_v24 : Ref sig .tc := ⟨.hbm, 32, rfl⟩
abbrev main_call0_v25 : Ref sig .tc := ⟨.hbm, 33, rfl⟩
abbrev main_call0_v26 : Ref sig .tc := ⟨.hbm, 34, rfl⟩
abbrev main_call0_v27 : Ref sig .tc := ⟨.hbm, 35, rfl⟩
abbrev main_call0_v28 : Ref sig .tc := ⟨.hbm, 36, rfl⟩
abbrev main_call0_cst_2 : Ref sig .tc := ⟨.hbm, 37, rfl⟩
abbrev main_call0_v29 : Ref sig .tc := ⟨.hbm, 38, rfl⟩
abbrev main_call0_v30 : Ref sig .tc := ⟨.hbm, 39, rfl⟩
abbrev main_call0_v31 : Ref sig .tc := ⟨.hbm, 40, rfl⟩
abbrev main_call0_v32 : Ref sig .tc := ⟨.hbm, 41, rfl⟩
abbrev main_call0_call1_c : Ref sig .tc := ⟨.hbm, 42, rfl⟩
abbrev main_call0_call1_v0 : Ref sig .tc := ⟨.hbm, 43, rfl⟩
abbrev main_call0_call1_v1 : Ref sig .tc := ⟨.hbm, 44, rfl⟩
abbrev main_call0_call1_c_0 : Ref sig .tc := ⟨.hbm, 45, rfl⟩
abbrev main_call0_call1_v2 : Ref sig .tc := ⟨.hbm, 46, rfl⟩
abbrev main_call0_call1_v3 : Ref sig .tc := ⟨.hbm, 47, rfl⟩
abbrev main_call0_call1_v4 : Ref sig .tc := ⟨.hbm, 48, rfl⟩
abbrev main_call0_call1_v5 : Ref sig .tc := ⟨.hbm, 49, rfl⟩
abbrev main_call0_call1_c_1 : Ref sig .tc := ⟨.hbm, 50, rfl⟩
abbrev main_call0_call1_c_2 : Ref sig .tc := ⟨.hbm, 51, rfl⟩
abbrev main_call0_call1_v6 : Ref sig .tc := ⟨.hbm, 52, rfl⟩
abbrev main_call0_call1_v7 : Ref sig .tc := ⟨.hbm, 53, rfl⟩
abbrev main_call0_call1_v8 : Ref sig .tc := ⟨.hbm, 54, rfl⟩
abbrev main_call0_call1_v9 : Ref sig .tc := ⟨.hbm, 55, rfl⟩
abbrev main_call0_call1_v10 : Ref sig .tc := ⟨.hbm, 56, rfl⟩
abbrev main_call0_call1_v11 : Ref sig .tc := ⟨.hbm, 57, rfl⟩
abbrev main_call0_call1_c_3 : Ref sig .tc := ⟨.hbm, 58, rfl⟩
abbrev main_call0_call1_v12 : Ref sig .tc := ⟨.hbm, 59, rfl⟩
abbrev main_call0_call1_v13 : Ref sig .tc := ⟨.hbm, 60, rfl⟩
abbrev main_call0_call1_cst : Ref sig .tc := ⟨.hbm, 61, rfl⟩
abbrev main_call0_call1_v14 : Ref sig .tc := ⟨.hbm, 62, rfl⟩
abbrev main_call0_v33 : Ref sig .tc := ⟨.hbm, 63, rfl⟩
abbrev main_call0_v34 : Ref sig .tc := ⟨.hbm, 64, rfl⟩
abbrev main_call0_v35 : Ref sig .tc := ⟨.hbm, 65, rfl⟩
abbrev main_call0_v36 : Ref sig .tc := ⟨.hbm, 66, rfl⟩
abbrev main_v0 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x16000000_S1x16000000_0_0 : S2x16000000.Slices ![0, 0] S1x16000000
  shapeCasts_S1x16000000_S16000000 : S1x16000000.ShapeCasts S16000000
  slices_S16000000x3_S16000000x1_0_0 : S16000000x3.Slices ![0, 0] S16000000x1
  shapeCasts_S16000000x1_S16000000 : S16000000x1.ShapeCasts S16000000
  slices_S16000000x3_S16000000x1_0_1 : S16000000x3.Slices ![0, 1] S16000000x1
  slices_S16000000x3_S16000000x1_0_2 : S16000000x3.Slices ![0, 2] S16000000x1
  bcast_S16000000_S16000000x1_0 : S16000000.BroadcastsInDim S16000000x1 (![0] : Fin 1 → Fin S16000000x1.rank)
  concatenates_S16000000x1_S16000000x1_S16000000x2_d1 : Shape.Concatenates [S16000000x1, S16000000x1] S16000000x2 1
  bcast_S_S500000x2 : S_.BroadcastsInDim S500000x2 (![] : Fin 0 → Fin S500000x2.rank)
  slices_S500000x2_S500000x1_0_0 : S500000x2.Slices ![0, 0] S500000x1
  shapeCasts_S500000x1_S500000 : S500000x1.ShapeCasts S500000
  slices_S500000x2_S500000x1_0_1 : S500000x2.Slices ![0, 1] S500000x1
  bcast_S_S500000 : S_.BroadcastsInDim S500000 (![] : Fin 0 → Fin S500000.rank)
  bcast_S_S16000000 : S_.BroadcastsInDim S16000000 (![] : Fin 0 → Fin S16000000.rank)
  bcast_S_S16000000x1 : S_.BroadcastsInDim S16000000x1 (![] : Fin 0 → Fin S16000000x1.rank)
  bcast_S1_S1x1_1 : S1.BroadcastsInDim S1x1 (![1] : Fin 1 → Fin S1x1.rank)
  bcast_S1x1_S16000000x1_0_1 : S1x1.BroadcastsInDim S16000000x1 (![0, 1] : Fin 2 → Fin S16000000x1.rank)
  reducesTo_S16000000x1_S16000000_d1 : S16000000x1.ReducesTo [1] S16000000
  h_S_ : 0 < S_.numel
  shapeCasts_S16000000_S125000x128 : S16000000.ShapeCasts S125000x128
  shapeCasts_S125000x128_S16000000 : S125000x128.ShapeCasts S16000000
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  scatter_S500000x2_S16000000x1_S16000000x2_1_0_0_1_wf : ScatterDims.WF S500000x2 S16000000x1 S16000000x2 [1] [0] [0] 1
  gather_S500000_S16000000x1_S16000000_n_0_n_n_0_1_1_wf : GatherDims.WF S500000 S16000000x1 S16000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S125000x128.size a
  hwx0_0 : ∀ i : grid0.Coords, EltTy.bits .f32 = 32 ∨ (Rect.block (s := S125000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S125000x128.size a
  hwx0_1 : ∀ i : grid0.Coords, EltTy.bits .f32 = 32 ∨ (Rect.block (s := S125000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S125000x128.size a
  hwx0_2 : ∀ i : grid0.Coords, EltTy.bits .f32 = 32 ∨ (Rect.block (s := S125000x128) S5000x128.size (cc0_transform_2 i) (hinb0_2 i)).WholeWords (EltTy.packing .f32)

variable [Facts₀]

def scatter_S500000x2_S16000000x1_S16000000x2_1_0_0_1 : ScatterDims S500000x2 S16000000x1 S16000000x2 where
  updateWindowDims := [1]
  insertedWindowDims := [0]
  scatterDimsToOperandDims := [0]
  indexVectorDim := 1
  wf := scatter_S500000x2_S16000000x1_S16000000x2_1_0_0_1_wf
def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf

abbrev win0_0 : Pipeline.Window sig grid0 :=
  Pipeline.Window.ofSpec (Memref.whole main_call0_v34) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v35) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v36) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000x2 : Shape := ⟨2, ![500000, 2]⟩
abbrev S16000000x3 : Shape := ⟨2, ![16000000, 3]⟩
abbrev S2x16000000 : Shape := ⟨2, ![2, 16000000]⟩
abbrev S1x16000000 : Shape := ⟨2, ![1, 16000000]⟩
abbrev S16000000 : Shape := ⟨1, ![16000000]⟩
abbrev S16000000x1 : Shape := ⟨2, ![16000000, 1]⟩
abbrev S_ : Shape := ⟨0, ![]⟩
abbrev S500000 : Shape := ⟨1, ![500000]⟩
abbrev S500000x1 : Shape := ⟨2, ![500000, 1]⟩

abbrev nBuf : Space → Nat
  | .hbm => 51
  | .vmem => 0
  | .smem => 0
  | _ => 0

abbrev bufTy : (tb : Table) → Fin (tcTables nBuf tb) → BufTy
  | .hbm, ⟨0, _⟩ => ⟨S500000x2, .f32⟩
  | .hbm, ⟨1, _⟩ => ⟨S16000000x3, .f32⟩
  | .hbm, ⟨2, _⟩ => ⟨S2x16000000, .i32⟩
  | .hbm, ⟨3, _⟩ => ⟨S1x16000000, .i32⟩
  | .hbm, ⟨4, _⟩ => ⟨S16000000, .i32⟩
  | .hbm, ⟨5, _⟩ => ⟨S16000000x1, .f32⟩
  | .hbm, ⟨6, _⟩ => ⟨S16000000, .f32⟩
  | .hbm, ⟨7, _⟩ => ⟨S16000000x1, .f32⟩
  | .hbm, ⟨8, _⟩ => ⟨S16000000, .f32⟩
  | .hbm, ⟨9, _⟩ => ⟨S16000000x1, .f32⟩
  | .hbm, ⟨10, _⟩ => ⟨S16000000, .f32⟩
  | .hbm, ⟨11, _⟩ => ⟨S_, .f32⟩
  | .hbm, ⟨12, _⟩ => ⟨S500000, .f32⟩
  | .hbm, ⟨13, _⟩ => ⟨S16000000x1, .i32⟩
  | .hbm, ⟨14, _⟩ => ⟨S500000, .f32⟩
  | .hbm, ⟨15, _⟩ => ⟨S16000000, .f32⟩
  | .hbm, ⟨16, _⟩ => ⟨S16000000, .f32⟩
  | .hbm, ⟨17, _⟩ => ⟨S_, .f32⟩
  | .hbm, ⟨18, _⟩ => ⟨S500000, .f32⟩
  | .hbm, ⟨19, _⟩ => ⟨S16000000x1, .i32⟩
  | .hbm, ⟨20, _⟩ => ⟨S500000, .f32⟩
  | .hbm, ⟨21, _⟩ => ⟨S500000, .f32⟩
  | .hbm, ⟨22, _⟩ => ⟨S500000x1, .f32⟩
  | .hbm, ⟨23, _⟩ => ⟨S500000, .f32⟩
  | .hbm, ⟨24, _⟩ => ⟨S500000x1, .f32⟩
  | .hbm, ⟨25, _⟩ => ⟨S500000, .f32⟩
  | .hbm, ⟨26, _⟩ => ⟨S500000, .f32⟩
  | .hbm, ⟨27, _⟩ => ⟨S_, .i32⟩
  | .hbm, ⟨28, _⟩ => ⟨S16000000, .i32⟩
  | .hbm, ⟨29, _⟩ => ⟨S16000000, .i1⟩
  | .hbm, ⟨30, _⟩ => ⟨S_, .i32⟩
  | .hbm, ⟨31, _⟩ => ⟨S16000000, .i32⟩
  | .hbm, ⟨32, _⟩ => ⟨S16000000, .i32⟩
  | .hbm, ⟨33, _⟩ => ⟨S16000000, .i32⟩
  | .hbm, ⟨34, _⟩ => ⟨S16000000x1, .i32⟩
  | .hbm, ⟨35, _⟩ => ⟨S16000000, .f32⟩
  | .hbm, ⟨36, _⟩ => ⟨S_, .f32⟩
  | .hbm, ⟨37, _⟩ => ⟨S16000000, .f32⟩
  | .hbm, ⟨38, _⟩ => ⟨S16000000, .f32⟩
  | .hbm, ⟨39, _⟩ => ⟨S16000000, .f32⟩
  | .hbm, ⟨40, _⟩ => ⟨S_, .i32⟩
  | .hbm, ⟨41, _⟩ => ⟨S16000000, .i32⟩
  | .hbm, ⟨42, _⟩ => ⟨S16000000, .i1⟩
  | .hbm, ⟨43, _⟩ => ⟨S_, .i32⟩
  | .hbm, ⟨44, _⟩ => ⟨S16000000, .i32⟩
  | .hbm, ⟨45, _⟩ => ⟨S16000000, .i32⟩
  | .hbm, ⟨46, _⟩ => ⟨S16000000, .i32⟩
  | .hbm, ⟨47, _⟩ => ⟨S16000000x1, .i32⟩
  | .hbm, ⟨48, _⟩ => ⟨S16000000, .f32⟩
  | .hbm, ⟨49, _⟩ => ⟨S16000000, .f32⟩
  | .hbm, ⟨50, _⟩ => ⟨S16000000, .f32⟩
  | _, _ => ⟨S500000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c : Ref sig .tc := ⟨.hbm, 27, rfl⟩
abbrev main_v22 : Ref sig .tc := ⟨.hbm, 28, rfl⟩
abbrev main_v23 : Ref sig .tc := ⟨.hbm, 29, rfl⟩
abbrev main_c_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_3 : Ref sig .tc := ⟨.hbm, 40, rfl⟩
abbrev main_v32 : Ref sig .tc := ⟨.hbm, 41, rfl⟩
abbrev main_v33 : Ref sig .tc := ⟨.hbm, 42, rfl⟩
abbrev main_c_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S16000000x3_S16000000x1_0_0 : S16000000x3.Slices ![0, 0] S16000000x1
  shapeCasts_S16000000x1_S16000000 : S16000000x1.ShapeCasts S16000000
  slices_S16000000x3_S16000000x1_0_1 : S16000000x3.Slices ![0, 1] S16000000x1
  slices_S16000000x3_S16000000x1_0_2 : S16000000x3.Slices ![0, 2] S16000000x1
  bcast_S_S500000 : S_.BroadcastsInDim S500000 (![] : Fin 0 → Fin S500000.rank)
  bcast_S16000000_S16000000x1_0 : S16000000.BroadcastsInDim S16000000x1 (![0] : Fin 1 → Fin S16000000x1.rank)
  slices_S500000x2_S500000x1_0_0 : S500000x2.Slices ![0, 0] S500000x1
  shapeCasts_S500000x1_S500000 : S500000x1.ShapeCasts S500000
  slices_S500000x2_S500000x1_0_1 : S500000x2.Slices ![0, 1] S500000x1
  bcast_S_S16000000 : S_.BroadcastsInDim S16000000 (![] : Fin 0 → Fin S16000000.rank)
  scatter_S500000_S16000000x1_S16000000_n_0_0_1_wf : ScatterDims.WF S500000 S16000000x1 S16000000 [] [0] [0] 1
  gather_S500000_S16000000x1_S16000000_n_0_n_n_0_1_1_wf : GatherDims.WF S500000 S16000000x1 S16000000 [] [0] [] [0] [] 1 ![1]

variable [Facts₀]

def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf

class Facts : Prop extends Facts₀ where

variable [Facts]
-- ==== Proof.Spec.lean ====
/-
  THE SPECIFICATION. One value per edge e of a graph with 500000 vertices and 16000000 edges:

      w e = (1 − C n) · (−A e · α n),      n = the source vertex of e,
      α n = (Σ A e' / Σ A e' · S e' · v e') / Aii n,   the sums over the edges e' whose source word is n,

  with A, S, v the three columns of the edge table, Aii, C the two columns of the vertex table, and the source
  word of an edge row 0 of the pair table. The source word is used twice, and not in the same way: a SUM collects
  the edges whose word READ SIGNED is exactly n (a word that is no vertex contributes nowhere), while the LOOKUP
  of a per-vertex value at an edge counts a negative word from the end and then clamps into [0, 499999]
  (`vtx`). For a word in range the two agree.

  The other program computes the per-vertex factor first, f n = −(1 − C n) · α n, and multiplies by A e
  afterwards: `Kval`. The two are one extended real by commutativity and associativity of the product and the
  sign rule (−x) · y = −(x · y), none of which needs finiteness (`Kval_eq_W`).

  Two hypotheses are named here because the second program needs them: every source word is a vertex
  (`InRange`), and the sum in the denominator is nonzero at every vertex some edge looks up (`DenNZ`).
-/
import Idealize.ShloMosaic.PureOps.Ideal
import Idealize.ShloMosaic.Lib.ValueIdx
import Mathlib.Algebra.BigOperators.Group.Finset.Basic

noncomputable section

open scoped BigOperators

namespace Cert.Hand.Spec

open Idealize.ShloMosaic Idealize.ShloMosaic.ValueIdx

abbrev SVtx : Shape := ⟨2, ![500000, 2]⟩
abbrev SEdge : Shape := ⟨2, ![16000000, 3]⟩
abbrev SPair : Shape := ⟨2, ![2, 16000000]⟩
abbrev SOut : Shape := ⟨1, ![16000000]⟩

variable (va : FVec Ideal SVtx .f32) (ea : FVec Ideal SEdge .f32) (ep : IVec SPair 32)

/-- The source word of edge e: row 0 of the pair table. -/
def src (e : Fin 16000000) : BitVec 32 := ep (ix2 (0 : Fin 2) e)

/-- The three columns of the edge table. -/
def colA (e : Fin 16000000) : EReal := ea (ix2 e (0 : Fin 3))
def colS (e : Fin 16000000) : EReal := ea (ix2 e (1 : Fin 3))
def colV (e : Fin 16000000) : EReal := ea (ix2 e (2 : Fin 3))

/-- The edges whose source word, read signed, is the vertex n. -/
def edgesOf (n : Fin 500000) : Finset (Fin 16000000) :=
  Finset.univ.filter fun e : Fin 16000000 => (src ep e).toInt = (n.val : ℤ)

/-- Σ A over the edges of n, and Σ A·S·v over them. -/
def num (n : Fin 500000) : EReal := ∑ e ∈ edgesOf ep n, colA ea e
def den (n : Fin 500000) : EReal := ∑ e ∈ edgesOf ep n, colA ea e * colS ea e * colV ea e

/-- A negative word counts from the end. -/
def wrap (s : BitVec 32) : BitVec 32 := if s.toInt < 0 then s + 500000#32 else s

/-- The vertex a per-vertex value is looked up at for edge e: the wrapped word, clamped into the table. -/
def vtx (e : Fin 16000000) : Fin 500000 := ⟨min (wrap (src ep e)).toInt.toNat (500000 - 1), by omega⟩

/-- α n = (Σ A / Σ A·S·v) / Aii n. -/
def alpha (n : Fin 500000) : EReal :=
  Ideal.div (Ideal.div (num ea ep n) (den ea ep n)) (va (ix2 n (0 : Fin 2)))

/-- The constant 1, kept as its word: both programs carry the same word, and it is never evaluated. -/
def one : EReal := Ideal.ofBits .f32 0x3F800000#32

/-- The value at edge e, the first program's way: (1 − C n) · (−A e · α n). -/
def W (e : Fin 16000000) : EReal :=
  (one - va (ix2 (vtx ep e) (1 : Fin 2))) * (-(colA ea e) * alpha va ea ep (vtx ep e))

/-- The per-vertex factor of the second program: −(1 − C n) · α n. -/
def fac (n : Fin 500000) : EReal := -(one - va (ix2 n (1 : Fin 2))) * alpha va ea ep n

/-- The value at edge e, the second program's way: A e · f n. -/
def Kval (e : Fin 16000000) : EReal := colA ea e * fac va ea ep (vtx ep e)

/-- The result array: entry e is `W e`. -/
def G : SOut.Idx → EReal := fun i => W va ea ep (i 0)

/-- a · (−b · α) = b · (−a · α) on the extended reals: the sign rule twice and one exchange of factors. -/
theorem mul_neg_mul_comm (a b al : EReal) : a * (-b * al) = b * (-a * al) := by
  rw [neg_mul, mul_neg, neg_mul, mul_neg, mul_left_comm]

/-- The two ways of computing the value at an edge agree. -/
theorem Kval_eq_W (e : Fin 16000000) : Kval va ea ep e = W va ea ep e := by
  unfold Kval fac W
  exact mul_neg_mul_comm _ _ _

/-- Every source word, read signed, is a vertex. -/
def InRange : Prop := ∀ e : Fin 16000000, 0 ≤ (src ep e).toInt ∧ (src ep e).toInt < 500000

/-- The denominator's sum is nonzero at every vertex some edge looks up. -/
def DenNZ : Prop := ∀ e : Fin 16000000, den ea ep (vtx ep e) ≠ 0

/-- For a word in range the lookup vertex is the word itself. -/
theorem vtx_val_of_inRange (h : InRange ep) (e : Fin 16000000) :
    ((vtx ep e).val : ℤ) = (src ep e).toInt := by
  obtain ⟨h0, h1⟩ := h e
  have hw : wrap (src ep e) = src ep e := if_neg (by omega)
  show ((min (wrap (src ep e)).toInt.toNat (500000 - 1) : ℕ) : ℤ) = _
  rw [hw]
  omega

end Cert.Hand.Spec

end
-- ==== Proof.LibVecScatterAdd.lean ====
/-
  GENERAL LEMMA: the accumulating scatter of a VECTOR of updates [E] into a vector operand [N] at a column [E, 1] of
  start words (`segment_sum` / `.at[idx].add` of a rank-1 array), READ AT AN INDEX over the extended reals, for
  arbitrary extents N (entries) and E (updates).

  Update e lands at entry (the start word of e read signed and NOT clamped), or nowhere when that is no entry
  (`vecScatter_resultIdx_iff`); so entry d of the result is the operand's entry plus the sum, over the updates
  whose word read signed is d, of the update (`vecScatterAdd_apply`). With it the re-indexing of a sum over the
  indices of a rank-1 shape as a sum over its one coordinate (`sum_idx1`).
  Nothing here mentions a program: the dimension-number record is built from a well-formedness fact the caller has.
-/
import Idealize.ShloMosaic.PureOps.Ideal
import Idealize.ShloMosaic.PureOps.Contract
import Idealize.ShloMosaic.Lib.ValueIdx
import Mathlib.Algebra.BigOperators.Group.Finset.Basic
import Mathlib.Algebra.BigOperators.Fin

noncomputable section

open scoped BigOperators

namespace Cert.Hand.VecScatter

open Idealize.ShloMosaic Idealize.ShloMosaic.ValueIdx

/-- An index of a rank-1 shape is its one coordinate … -/
def idxEquiv1 {n : Nat} : (⟨1, ![n]⟩ : Shape).Idx ≃ Fin n where
  toFun i := i 0
  invFun a := ix1 a
  left_inv i := (eq_ix1 i).symm
  right_inv _ := rfl

/-- … so a sum over the indices is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of a vector of updates [E] into a vector [N] at a column [E, 1] of start
    words: no window axis, the one operand axis inserted and indexed. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w)

/-- The window of update e starts at the start word of e, read signed … -/
theorem vecScatter_start (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and its window coordinate is 0: the one operand axis is an inserted axis. -/
theorem vecScatter_window (e : Fin E) :
    (vecScatter N E wf).window (ix1 e) 0 = 0 := by
  unfold ScatterDims.window
  rw [dif_neg]
  show (0 : Fin 1) ∉ (List.finRange 1).filter (· ∉ [(0 : Fin 1)])
  decide

/-- Update e lands at entry d exactly when the start word of e, read signed, is d. -/
theorem vecScatter_resultIdx_iff (e : Fin E) (d : Fin N) :
    (vecScatter N E wf).resultIdx? (ix1 e) idx = some (ix1 d) ↔ (idx (ix2 e 0)).toInt = (d.val : ℤ) := by
  unfold ScatterDims.resultIdx?
  split
  · next h =>
    rw [Option.some.injEq]
    have h0 := h 0
    rw [vecScatter_start, vecScatter_window] at h0
    constructor
    · intro hf
      have e0 := congrArg (fun f => (f 0).val) hf
      simp only [vecScatter_start, vecScatter_window] at e0
      have : ((ix1 d : (⟨1, ![N]⟩ : Shape).Idx) 0).val = d.val := rfl
      omega
    · intro hd
      funext a
      refine Fin.ext ?_
      match a with
      | ⟨0, _⟩ =>
        show ((vecScatter N E wf).start (ix1 e) idx 0 + ((vecScatter N E wf).window (ix1 e) 0 : ℕ)).toNat = d.val
        rw [vecScatter_start, vecScatter_window]
        omega
  · next h =>
    constructor
    · intro hf
      exact absurd hf (by simp)
    · intro hd
      exfalso
      apply h
      intro a
      match a with
      | ⟨0, _⟩ =>
        show 0 ≤ (vecScatter N E wf).start (ix1 e) idx 0 + ((vecScatter N E wf).window (ix1 e) 0 : ℕ)
          ∧ (vecScatter N E wf).start (ix1 e) idx 0 + ((vecScatter N E wf).window (ix1 e) 0 : ℕ) < (N : ℤ)
        rw [vecScatter_start, vecScatter_window]
        have := d.isLt
        omega

/-- THE ACCUMULATING VECTOR SCATTER AT ENTRY d: the operand's entry plus the sum, over the updates whose start word
    read signed is d, of the update. -/
theorem vecScatterAdd_apply {φ : FTy} (x : FVec Ideal ⟨1, ![N]⟩ φ) (upd : FVec Ideal ⟨1, ![E]⟩ φ) (d : Fin N) :
    Host.scatterAdd (F := Ideal) (vecScatter N E wf) x idx upd (ix1 d)
      = x (ix1 d) + ∑ e ∈ Finset.univ.filter (fun e : Fin E => (idx (ix2 e 0)).toInt = (d.val : ℤ)), upd (ix1 e) := by
  show Ideal.hostScatterAdd (vecScatter N E wf) x idx upd (ix1 d) = _
  unfold Ideal.hostScatterAdd
  congr 1
  rw [Finset.sum_filter, sum_idx1, Finset.sum_filter]
  refine Finset.sum_congr rfl fun e _ => ?_
  simp only [vecScatter_resultIdx_iff]

end Cert.Hand.VecScatter

end
-- ==== Proof.LibRowGatherScatter.lean ====
/-
  GENERAL LEMMAS: two indexed host operations, the broadcasts that feed them, and two small companions, each READ AT AN
  INDEX over the extended reals, for ARBITRARY extents N (table rows), E (edges) and D (features).

  * the row gather (`x[idx]` of an [N, D] table at a column [E, 1] of start words: `rowGather`, `rowGather_apply`):
    result (e, q) is the table at (the start word of edge e read signed and clamped into the rows [0, N − 1], q);
  * the accumulating row scatter (`segment_sum` / `.at[idx].add` of [E, D] updates into an [N, D] operand at a column
    [E, 1] of start words: `rowScatter`, `rowScatter_resultIdx_iff`, `rowScatterAdd_apply`): update (e, q') lands at
    (the start word of edge e read signed and NOT clamped, q'), or nowhere when that is no row; so result (d, q) is the
    operand's entry plus the sum over the edges whose word, read signed, is d of update (e, q);
  * a scalar, a vector as a column, a column over the features, a vector as a row and a row over the rows, each
    broadcast read at an index (`bcastScalar_apply` … `bcastRows_apply`);
  * jnp's index normalisation as a select (`wrap_select`: a negative word counts from the end) and the maximum with a
    broadcast zero (`reluOps_apply`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## The row gather -/

section Gather
variable {α : Type}

/-- The dimension numbers of a gather of whole rows of an [N, D] table at a column [E, 1] of start words:
    the row axis collapsed and indexed, the feature axis an offset axis. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, q): the table at the clamped signed start word of e, feature q. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same with the start word of e named: the form a caller uses when the start words are themselves computed. -/
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

/-! ## The accumulating row scatter -/

section Scatter

/-- The dimension numbers of a scatter of whole rows [E, D] into an [N, D] operand at a column [E, 1] of start
    words: the feature axis a window axis, the row axis inserted and indexed. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

/-- On the row axis the window of update (e, q') starts at the start word of e, read signed … -/
theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start_one (e : Fin E) (q' : Fin D) :
    (rowScatter N E D wf).start (ix2 e q') idx 1 = 0 := by
  unfold ScatterDims.start
  rw [dif_neg (show (1 : Fin 2) ∉ [(0 : Fin 2)] by decide)]

/-- The window coordinate of update (e, q') is 0 on the row axis … -/
theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

/-- … and q' on the feature axis. -/
theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

/-- Update (e, q') lands at (d, q) exactly when the start word of e, read signed, is d and q' = q. -/
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- THE ACCUMULATING ROW SCATTER AT (d, q): the operand's entry plus the sum, over the edges whose start word read
    signed is d, of update (e, q). The sum over the rank-2 update indices that land at (d, q) is split by
    coordinates; in the inner sum over features only q' = q survives. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

/-! ## Broadcasts read at an index -/

section Broadcasts
variable {α : Type}

/-- A scalar spread over any shape reads the scalar everywhere. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

/-- A vector as a column [E, 1], at (e, 0): the vector at e. -/
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

/-- A column [E, 1] spread over D features, at (e, q): the column at (e, 0). -/
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

/-- A vector [D] as a row [1, D], at (0, q): the vector at q. -/
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

/-- A row [1, D] spread over N rows, at (d, q): the row at (0, q). -/
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

/-! ## The start word of a row lookup: a negative word counts from the end -/

/-- The select on "the word is negative" between the word plus the row count and the word itself. -/
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

/-! ## The rectifier read at an index -/

/-- The maximum with a zero scalar spread over the shape is the maximum with 0, entry by entry. -/
theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.RefValue.lean ====
/-
  The first program's result, read index by index, is the specification's array `G`.

  The program slices the three tables into columns, sums A and A·S·v per vertex by two accumulating scatters at the
  source words, divides twice to get α, looks C and α up at the wrapped and clamped source word by two takes, and
  multiplies (1 − C) by (−A · α). Each stage is read at one explicit coordinate; the four stages whose read position
  depends on the source words are read here, the rest by the per-operation lemmas.
-/
import proofs.«421623_j91096256348925_3_alg».proof.Proof.Gen.ReferenceIdeal.Read
import proofs.«421623_j91096256348925_3_alg».proof.Proof.Spec
import proofs.«421623_j91096256348925_3_alg».proof.Proof.LibVecScatterAdd
import proofs.«421623_j91096256348925_3_alg».proof.Proof.LibRowGatherScatter
import Idealize.ShloMosaic.Lib.StableHlo.Predicate
import Idealize.ShloMosaic.Lib.Pipeline.Value

noncomputable section

open scoped BigOperators

namespace Cert.Hand.RefValue

open Idealize.ShloMosaic Idealize.ShloMosaic.ValueIdx Cert.Hand
open Cert.ReferenceIdeal Cert.ReferenceIdeal.Gen Cert.ReferenceIdeal.Read

/-! ## The columns of the three tables at a coordinate -/

/-- The sliced and flattened row 0 of the pair table at edge e is the source word of e. -/
theorem src_read (x2 : IVec Spec.SPair 32) (e : Fin 16000000) :
    val_main_v1 (F := Ideal) x2 (ix1 e) = Spec.src x2 e := by
  rw [val_main_v1_apply, val_main_v0_apply]
  unfold Spec.src
  congr 1
  funext a
  match a with
  | ⟨0, _⟩ => rfl
  | ⟨1, _⟩ => exact Fin.ext (Nat.mod_eq_of_lt e.isLt)

/-- Column 0 of the edge table at edge e is A e. -/
theorem colA_read (x1 : FVec Ideal Spec.SEdge .f32) (e : Fin 16000000) :
    val_main_v3 (F := Ideal) x1 (ix1 e) = Spec.colA x1 e := by
  rw [val_main_v3_apply, val_main_v2_apply]
  unfold Spec.colA
  congr 1
  funext a
  match a with
  | ⟨0, _⟩ => exact Fin.ext (Nat.div_one _)
  | ⟨1, _⟩ => rfl

/-- Column 1 of the edge table at edge e is S e. -/
theorem colS_read (x1 : FVec Ideal Spec.SEdge .f32) (e : Fin 16000000) :
    val_main_v5 (F := Ideal) x1 (ix1 e) = Spec.colS x1 e := by
  rw [val_main_v5_apply, val_main_v4_apply]
  unfold Spec.colS
  congr 1
  funext a
  match a with
  | ⟨0, _⟩ => exact Fin.ext (Nat.div_one _)
  | ⟨1, _⟩ => rfl

/-- Column 2 of the edge table at edge e is v e. -/
theorem colV_read (x1 : FVec Ideal Spec.SEdge .f32) (e : Fin 16000000) :
    val_main_v7 (F := Ideal) x1 (ix1 e) = Spec.colV x1 e := by
  rw [val_main_v7_apply, val_main_v6_apply]
  unfold Spec.colV
  congr 1
  funext a
  match a with
  | ⟨0, _⟩ => exact Fin.ext (Nat.div_one _)
  | ⟨1, _⟩ => rfl

/-- Column 0 of the vertex table at vertex n. -/
theorem aii_read (x0 : FVec Ideal Spec.SVtx .f32) (n : Fin 500000) :
    val_main_v18 (F := Ideal) x0 (ix1 n) = x0 (ix2 n (0 : Fin 2)) := by
  rw [val_main_v18_apply, val_main_v17_apply]
  congr 1
  funext a
  match a with
  | ⟨0, _⟩ => exact Fin.ext (Nat.div_one _)
  | ⟨1, _⟩ => rfl

/-- Column 1 of the vertex table at vertex n. -/
theorem c_read (x0 : FVec Ideal Spec.SVtx .f32) (n : Fin 500000) :
    val_main_v20 (F := Ideal) x0 (ix1 n) = x0 (ix2 n (1 : Fin 2)) := by
  rw [val_main_v20_apply, val_main_v19_apply]
  congr 1
  funext a
  match a with
  | ⟨0, _⟩ => exact Fin.ext (Nat.div_one _)
  | ⟨1, _⟩ => rfl

/-! ## The two per-vertex sums -/

/-- The scatter's dimension numbers are those of a vector scattered into a vector at a column of words. -/
theorem rec_eq : scatter_S500000_S16000000x1_S16000000_n_0_0_1
    = VecScatter.vecScatter 500000 16000000 Facts₀.scatter_S500000_S16000000x1_S16000000_n_0_0_1_wf := rfl

/-- The source words laid out as a column, first copy. -/
theorem col9_read (x2 : IVec Spec.SPair 32) (e : Fin 16000000) :
    val_main_v9 (F := Ideal) x2 (ix2 e (0 : Fin 1)) = Spec.src x2 e := by
  rw [val_main_v9_apply, ← src_read]
  congr 1
  funext a
  match a with
  | ⟨0, _⟩ => rfl

/-- The source words laid out as a column, second copy. -/
theorem col14_read (x2 : IVec Spec.SPair 32) (e : Fin 16000000) :
    val_main_v14 (F := Ideal) x2 (ix2 e (0 : Fin 1)) = Spec.src x2 e := by
  rw [val_main_v14_apply, ← src_read]
  congr 1
  funext a
  match a with
  | ⟨0, _⟩ => rfl

/-- Σ A over the edges of vertex n. -/
theorem num_read (x1 : FVec Ideal Spec.SEdge .f32) (x2 : IVec Spec.SPair 32) (n : Fin 500000) :
    val_main_v10 (F := Ideal) x1 x2 (ix1 n) = Spec.num x1 x2 n := by
  unfold val_main_v10
  rw [rec_eq, VecScatter.vecScatterAdd_apply, val_main_v8_apply, val_main_cst_apply]
  show Ideal.ofBits .f32 0x00000000#32 + _ = _
  rw [Ideal.ofBits_zero_f32, zero_add]
  unfold Spec.num Spec.edgesOf
  simp only [col9_read, colA_read]

/-- Σ A·S·v over the edges of vertex n. -/
theorem den_read (x1 : FVec Ideal Spec.SEdge .f32) (x2 : IVec Spec.SPair 32) (n : Fin 500000) :
    val_main_v15 (F := Ideal) x1 x2 (ix1 n) = Spec.den x1 x2 n := by
  unfold val_main_v15
  rw [rec_eq, VecScatter.vecScatterAdd_apply, val_main_v13_apply, val_main_cst_0_apply]
  show Ideal.ofBits .f32 0x00000000#32 + _ = _
  rw [Ideal.ofBits_zero_f32, zero_add]
  unfold Spec.den Spec.edgesOf
  simp only [col14_read, val_main_v12_apply, val_main_v11_apply, colA_read, colS_read, colV_read, Ideal.mulf_def]

/-- α at vertex n. -/
theorem alpha_read (x0 : FVec Ideal Spec.SVtx .f32) (x1 : FVec Ideal Spec.SEdge .f32) (x2 : IVec Spec.SPair 32)
    (n : Fin 500000) :
    val_main_v21 (F := Ideal) x0 x1 x2 (ix1 n) = Spec.alpha x0 x1 x2 n := by
  rw [val_main_v21_apply, val_main_v16_apply, num_read, den_read, aii_read]
  rfl

/-! ## The two lookups -/

/-- The take at edge e of a per-vertex array, its start words a column holding the wrapped source words, reads the
    array at the lookup vertex of e. -/
theorem take_read (x : S500000.Idx → EReal) (idx : IVec S16000000x1 32) (x2 : IVec Spec.SPair 32)
    (e : Fin 16000000) (h : idx (ix2 e (0 : Fin 1)) = Spec.wrap (Spec.src x2 e)) :
    Host.gather gather_S500000_S16000000x1_S16000000_n_0_n_n_0_1_1 x idx (ix1 e) = x (ix1 (Spec.vtx x2 e)) := by
  have h1 : (ix1 e : S16000000.Idx) = Shape.Idx.ofFin e := by
    funext a
    match a with
    | ⟨0, _⟩ => rfl
  have h2 : (StableHlo.Predicate.ixP e : S16000000x1.Idx) = ix2 e (0 : Fin 1) := by
    funext a
    match a with
    | ⟨0, _⟩ => rfl
    | ⟨1, _⟩ => rfl
  rw [h1, StableHlo.Predicate.gather_take _ rfl rfl rfl rfl x idx e (by omega)]
  congr 1
  funext a
  match a with
  | ⟨0, _⟩ =>
    refine Fin.ext ?_
    show min (idx (StableHlo.Predicate.ixP e)).toInt.toNat (500000 - 1)
      = min (Spec.wrap (Spec.src x2 e)).toInt.toNat (500000 - 1)
    rw [h2, h]

/-- The word the first lookup starts at is the wrapped source word. -/
theorem col27_read (x2 : IVec Spec.SPair 32) (e : Fin 16000000) :
    val_main_v27 (F := Ideal) x2 (ix2 e (0 : Fin 1)) = Spec.wrap (Spec.src x2 e) := by
  have hi : idx_main_v27 (ix2 e (0 : Fin 1)) = ix1 e := by
    funext a
    match a with
    | ⟨0, _⟩ => rfl
  rw [val_main_v27_apply, hi, val_main_v26_apply, val_main_v23_apply, val_main_v25_apply, val_main_v22_apply,
    val_main_v24_apply, val_main_c_apply, val_main_c_1_apply, src_read, Hand.wrap_select]
  rfl

/-- The word the second lookup starts at is the wrapped source word. -/
theorem col37_read (x2 : IVec Spec.SPair 32) (e : Fin 16000000) :
    val_main_v37 (F := Ideal) x2 (ix2 e (0 : Fin 1)) = Spec.wrap (Spec.src x2 e) := by
  have hi : idx_main_v37 (ix2 e (0 : Fin 1)) = ix1 e := by
    funext a
    match a with
    | ⟨0, _⟩ => rfl
  rw [val_main_v37_apply, hi, val_main_v36_apply, val_main_v33_apply, val_main_v35_apply, val_main_v32_apply,
    val_main_v34_apply, val_main_c_3_apply, val_main_c_4_apply, src_read, Hand.wrap_select]
  rfl

/-- C at the lookup vertex of e. -/
theorem cAt_read (x0 : FVec Ideal Spec.SVtx .f32) (x2 : IVec Spec.SPair 32) (e : Fin 16000000) :
    val_main_v28 (F := Ideal) x0 x2 (ix1 e) = x0 (ix2 (Spec.vtx x2 e) (1 : Fin 2)) := by
  unfold val_main_v28
  rw [take_read _ _ x2 e (col27_read x2 e), c_read]

/-- α at the lookup vertex of e. -/
theorem alphaAt_read (x0 : FVec Ideal Spec.SVtx .f32) (x1 : FVec Ideal Spec.SEdge .f32) (x2 : IVec Spec.SPair 32)
    (e : Fin 16000000) :
    val_main_v38 (F := Ideal) x0 x1 x2 (ix1 e) = Spec.alpha x0 x1 x2 (Spec.vtx x2 e) := by
  unfold val_main_v38
  rw [take_read _ _ x2 e (col37_read x2 e), alpha_read]

/-! ## The result -/

theorem ref_eq (x0 : FVec Ideal Spec.SVtx .f32) (x1 : FVec Ideal Spec.SEdge .f32) (x2 : IVec Spec.SPair 32) :
    Cert.ReferenceIdeal.Read.val_main_v40 (F := Ideal) x0 x1 x2 = Spec.G x0 x1 x2 := by
  funext i
  obtain ⟨e, rfl⟩ : ∃ e : Fin 16000000, i = ix1 e := ⟨i 0, eq_ix1 i⟩
  show _ = Spec.W x0 x1 x2 e
  unfold Spec.W
  rw [val_main_v40_apply, val_main_v30_apply, val_main_v39_apply, val_main_v31_apply, val_main_v29_apply,
    val_main_cst_2_apply, cAt_read, alphaAt_read, colA_read]
  rfl

end Cert.Hand.RefValue

end
-- ==== Proof.PreDecode.lean ====
/-
  What the precondition says of the inputs: every source word is a vertex, and the denominator's sum is nonzero at
  every vertex an edge looks up.

  The precondition is a conjunction of four tests, each a universal statement over an array; only the last two are
  read here. Each array the tests are built from is named below and read at one edge (or one vertex):
  the source words (row 0 of the pair table), the product A·S·v per edge, the sum of these products per vertex
  (accumulated at the source words read signed), the range test 0 ≤ word < 500000, the lookup word (a negative word
  counts from the end), the sum looked up at the clamped lookup word, and the test that this sum differs from 0.
-/
import proofs.«421623_j91096256348925_3_alg».proof.Proof.Gen.Pre_finite_inputs
import proofs.«421623_j91096256348925_3_alg».proof.Proof.Spec
import proofs.«421623_j91096256348925_3_alg».proof.Proof.LibVecScatterAdd
import proofs.«421623_j91096256348925_3_alg».proof.Proof.LibRowGatherScatter
import Idealize.ShloMosaic.Lib.StableHlo.Predicate
import Idealize.ShloMosaic.Lib.ReduceAll
import Idealize.ShloMosaic.Lib.Pipeline.Value

noncomputable section

open scoped BigOperators

namespace Cert.Hand.PreDecode

open Idealize.ShloMosaic Idealize.ShloMosaic.ValueIdx Cert.Hand
open Cert.Pre_finite_inputs Cert.Pre_finite_inputs.Facts

/-- Row 0 of the pair table, laid out as a vector over the edges. -/
def srcV (x2 : IVec S2x16000000 32) : IVec S16000000 32 :=
  shapeCast S16000000 (extractStridedSlice S1x16000000 ![0, 0] x2 slices_S2x16000000_S1x16000000_0_0)
    shapeCasts_S1x16000000_S16000000

/-- The vector of source words at edge e is the source word of e. -/
theorem srcV_apply (x2 : IVec Spec.SPair 32) (e : Fin 16000000) : srcV x2 (ix1 e) = Spec.src x2 e := by
  unfold srcV Spec.src
  rw [shapeCast_apply _ shapeCasts_S1x16000000_S16000000 (ix1 e) (ix2 (0 : Fin 1) e)
    (by rewrite [Shape.rowMajor_val_two, Shape.rowMajor_val_one]; show 0 * 16000000 + e.val = e.val; omega)]
  exact extractStridedSlice_apply ![0, 0] x2 slices_S2x16000000_S1x16000000_0_0 (ix2 (0 : Fin 1) e) (ix2 (0 : Fin 2) e)
    (fun a => match a with
      | ⟨0, _⟩ => by show (0 : Nat) = 0 + 0; rfl
      | ⟨1, _⟩ => by show e.val = 0 + e.val; omega)

/-- Column c of the edge table, laid out as a vector over the edges. -/
def colVec (x1 : FVec Ideal S16000000x3 .f32) (c : Nat) (hs : S16000000x3.Slices ![0, c] S16000000x1) : FVec Ideal S16000000 .f32 :=
  shapeCast S16000000 (extractStridedSlice S16000000x1 ![0, c] x1 hs) shapeCasts_S16000000x1_S16000000

/-- Column c as a vector, at edge e, is the table's entry (e, c). -/
theorem colVec_apply (x1 : FVec Ideal Spec.SEdge .f32) (c : Fin 3) (hs : S16000000x3.Slices ![0, c.val] S16000000x1)
    (e : Fin 16000000) : colVec x1 c.val hs (ix1 e) = x1 (ix2 e c) := by
  unfold colVec
  rw [shapeCast_apply _ shapeCasts_S16000000x1_S16000000 (ix1 e) (ix2 e (0 : Fin 1))
    (by rewrite [Shape.rowMajor_val_two, Shape.rowMajor_val_one]; show e.val * 1 + 0 = e.val; omega)]
  exact extractStridedSlice_apply ![0, c.val] x1 hs (ix2 e (0 : Fin 1)) (ix2 e c)
    (fun a => match a with
      | ⟨0, _⟩ => by show e.val = 0 + e.val; omega
      | ⟨1, _⟩ => by show c.val = c.val + 0; rfl)

/-- The product (A·S)·v as a vector over the edges. -/
def updV (x1 : FVec Ideal S16000000x3 .f32) : FVec Ideal S16000000 .f32 :=
  mulf (mulf (colVec x1 0 slices_S16000000x3_S16000000x1_0_0) (colVec x1 1 slices_S16000000x3_S16000000x1_0_1))
    (colVec x1 2 slices_S16000000x3_S16000000x1_0_2)

/-- The product vector at edge e is A e · S e · v e. -/
theorem updV_apply (x1 : FVec Ideal Spec.SEdge .f32) (e : Fin 16000000) :
    updV x1 (ix1 e) = Spec.colA x1 e * Spec.colS x1 e * Spec.colV x1 e := by
  have hA : colVec x1 0 slices_S16000000x3_S16000000x1_0_0 (ix1 e) = x1 (ix2 e (0 : Fin 3)) :=
    colVec_apply x1 (0 : Fin 3) slices_S16000000x3_S16000000x1_0_0 e
  have hS : colVec x1 1 slices_S16000000x3_S16000000x1_0_1 (ix1 e) = x1 (ix2 e (1 : Fin 3)) :=
    colVec_apply x1 (1 : Fin 3) slices_S16000000x3_S16000000x1_0_1 e
  have hV : colVec x1 2 slices_S16000000x3_S16000000x1_0_2 (ix1 e) = x1 (ix2 e (2 : Fin 3)) :=
    colVec_apply x1 (2 : Fin 3) slices_S16000000x3_S16000000x1_0_2 e
  unfold updV Spec.colA Spec.colS Spec.colV
  rw [mulf_apply, mulf_apply, hA, hS, hV]

/-- The denominator's sums as a vector over the vertices: the products accumulated into zeros at the source words. -/
def denV (x1 : FVec Ideal S16000000x3 .f32) (x2 : IVec S2x16000000 32) : FVec Ideal S500000 .f32 :=
  Host.scatterAdd (F := Ideal) scatter_S500000_S16000000x1_S16000000_n_0_0_1
    (broadcastInDim S500000 ![] bcast_S_S500000 (constant (F := Ideal) S_ .f32 0x00000000#32))
    (broadcastInDim S16000000x1 ![0] bcast_S16000000_S16000000x1_0 (srcV x2))
    (updV x1)

/-- Entry n of the accumulated vector is 0 plus the sum of A·S·v over the edges whose word read signed is n:
    the specification's denominator at n. -/
theorem denV_apply (x1 : FVec Ideal Spec.SEdge .f32) (x2 : IVec Spec.SPair 32) (n : Fin 500000) :
    denV x1 x2 (ix1 n) = Spec.den x1 x2 n := by
  unfold denV
  show Host.scatterAdd (F := Ideal)
    (VecScatter.vecScatter 500000 16000000 scatter_S500000_S16000000x1_S16000000_n_0_0_1_wf) _ _ _ (ix1 n) = _
  rw [VecScatter.vecScatterAdd_apply, Cert.ReferenceIdeal.Hand.bcastScalar_apply, constant_apply,
    Ideal.ofBits_zero_f32, zero_add]
  unfold Spec.den Spec.edgesOf
  refine Finset.sum_congr (Finset.filter_congr fun e _ => ?_) (fun e _ => updV_apply x1 e)
  rw [Cert.ReferenceIdeal.Hand.bcastCol_apply, srcV_apply]

/-- The range test at every edge: 0 ≤ word and word < 500000, both signed. -/
def rangeV (x2 : IVec S2x16000000 32) : IVec S16000000 1 :=
  andi (cmpi .sge (srcV x2) (broadcastInDim S16000000 ![] bcast_S_S16000000 (constantI S_ 32 0#32)))
    (cmpi .slt (srcV x2) (broadcastInDim S16000000 ![] bcast_S_S16000000 (constantI S_ 32 500000#32)))

/-- Where the range test holds, the source word read signed lies in [0, 500000). -/
theorem rangeV_one (x2 : IVec Spec.SPair 32) (e : Fin 16000000) (h : rangeV x2 (ix1 e) = 1#1) :
    0 ≤ (Spec.src x2 e).toInt ∧ (Spec.src x2 e).toInt < 500000 := by
  have h' : IntOp.andi (IntOp.cmpi .sge (srcV x2 (ix1 e)) 0#32) (IntOp.cmpi .slt (srcV x2 (ix1 e)) 500000#32) = 1#1 := h
  rw [srcV_apply] at h'
  obtain ⟨h1, h2⟩ := IntOp.andi_eq_one.mp h'
  have g1 := IntOp.cmpi_sge.mp h1
  have g2 := IntOp.cmpi_slt.mp h2
  have z0 : (0#32).toInt = 0 := by decide
  have z1 : (500000#32).toInt = 500000 := by decide
  rw [z0] at g1
  rw [z1] at g2
  exact ⟨g1, g2⟩

/-- The lookup word at every edge: a negative word counts from the end. -/
def wrapV (x2 : IVec S2x16000000 32) : IVec S16000000 32 :=
  select (cmpi .slt (srcV x2) (broadcastInDim S16000000 ![] bcast_S_S16000000 (constantI S_ 32 0#32)))
    (addi (srcV x2) (broadcastInDim S16000000 ![] bcast_S_S16000000 (constantI S_ 32 500000#32))) (srcV x2)

/-- The lookup word at edge e is the wrapped source word of e. -/
theorem wrapV_apply (x2 : IVec Spec.SPair 32) (e : Fin 16000000) :
    wrapV x2 (ix1 e) = Spec.wrap (Spec.src x2 e) := by
  show Scalar.select (IntOp.cmpi .slt (srcV x2 (ix1 e)) 0#32) (IntOp.addi (srcV x2 (ix1 e)) 500000#32)
    (srcV x2 (ix1 e)) = _
  rw [Cert.ReferenceIdeal.Hand.wrap_select, srcV_apply]
  rfl

/-- Two spellings of the rank-1 index with coordinate p. -/
theorem ofFin_eq_ix1 {n : Nat} (p : Fin n) : (Shape.Idx.ofFin p : (⟨1, ![n]⟩ : Shape).Idx) = ix1 p := by
  funext a
  match a with
  | ⟨0, _⟩ => exact Fin.ext rfl

/-- Two spellings of the index (p, 0) of a column. -/
theorem ixP_eq_ix2 {n : Nat} (p : Fin n) :
    (StableHlo.Predicate.ixP p : (⟨2, ![n, 1]⟩ : Shape).Idx) = ix2 p (0 : Fin 1) := by
  funext a
  match a with
  | ⟨0, _⟩ => rfl
  | ⟨1, _⟩ => rfl

/-- The denominator looked up at every edge. -/
def gathV (x1 : FVec Ideal S16000000x3 .f32) (x2 : IVec S2x16000000 32) : FVec Ideal S16000000 .f32 :=
  Host.gather gather_S500000_S16000000x1_S16000000_n_0_n_n_0_1_1 (denV x1 x2)
    (broadcastInDim S16000000x1 ![0] bcast_S16000000_S16000000x1_0 (wrapV x2))

/-- The looked-up value at edge e is the denominator at the vertex of e: the lookup reads the table at the wrapped
    word read signed and clamped into [0, 499999], which is the specification's lookup vertex. -/
theorem gathV_apply (x1 : FVec Ideal Spec.SEdge .f32) (x2 : IVec Spec.SPair 32) (e : Fin 16000000) :
    gathV x1 x2 (ix1 e) = Spec.den x1 x2 (Spec.vtx x2 e) := by
  unfold gathV
  have g := StableHlo.Predicate.gather_take gather_S500000_S16000000x1_S16000000_n_0_n_n_0_1_1 rfl rfl rfl rfl
    (denV x1 x2) (broadcastInDim S16000000x1 ![0] bcast_S16000000_S16000000x1_0 (wrapV x2)) e (by omega)
  have hw : broadcastInDim S16000000x1 ![0] bcast_S16000000_S16000000x1_0 (wrapV x2) (StableHlo.Predicate.ixP e)
      = Spec.wrap (Spec.src x2 e) := by
    rw [ixP_eq_ix2, Cert.ReferenceIdeal.Hand.bcastCol_apply, wrapV_apply]
  rw [ofFin_eq_ix1, ofFin_eq_ix1] at g
  rw [g, denV_apply]
  refine congrArg (Spec.den x1 x2) (Fin.ext ?_)
  show min _ _ = min _ _
  rw [hw]

/-- The denominator test at every edge: the looked-up sum differs from 0. -/
def neV (x1 : FVec Ideal S16000000x3 .f32) (x2 : IVec S2x16000000 32) : IVec S16000000 1 :=
  cmpf .une (gathV x1 x2)
    (broadcastInDim S16000000 ![] bcast_S_S16000000 (constant (F := Ideal) S_ .f32 0x00000000#32))

/-- Where the denominator test holds, the denominator at the vertex of e is not 0: on the extended reals the
    comparison "unordered or not equal" is ≠. -/
theorem neV_one (x1 : FVec Ideal Spec.SEdge .f32) (x2 : IVec Spec.SPair 32) (e : Fin 16000000)
    (h : neV x1 x2 (ix1 e) = 1#1) : Spec.den x1 x2 (Spec.vtx x2 e) ≠ 0 := by
  unfold neV at h
  rw [cmpf_apply, Cert.ReferenceIdeal.Hand.bcastScalar_apply, constant_apply, Ideal.ofBits_zero_f32,
    gathV_apply] at h
  change Ideal.cmp .une _ _ = 1#1 at h
  unfold Ideal.cmp at h
  exact of_decide_eq_true ((StableHlo.Predicate.ofBool_eq_one_iff _).mp h)

/-- The precondition is the conjunction of four universal tests; the third gives the range of every source word,
    the fourth the nonzero denominator at every looked-up vertex. -/
theorem pre_decode (x0 : FVec Ideal Spec.SVtx .f32) (x1 : FVec Ideal Spec.SEdge .f32) (x2 : IVec Spec.SPair 32)
    (h : Cert.Pre_finite_inputs.fn (F := Ideal) x0 x1 x2 = fun _ => 1#1) :
    Spec.InRange x2 ∧ Spec.DenNZ x1 x2 := by
  -- the rank-0 shape has one index
  haveI : Subsingleton S_.Idx := ⟨fun a b => funext fun d => d.elim0⟩
  have h0 := congrFun h ix0
  have h1 : IntOp.andi (IntOp.andi _
      (Host.reduce IntOp.andi (rangeV x2) (constantI S_ 1 1#1) reducesTo_S16000000_S_d0 h_S_ ix0))
      (Host.reduce IntOp.andi (neV x1 x2) (constantI S_ 1 1#1) reducesTo_S16000000_S_d0 h_S_ ix0) = 1#1 := h0
  obtain ⟨h2, hD⟩ := IntOp.andi_eq_one.mp h1
  obtain ⟨_, hR⟩ := IntOp.andi_eq_one.mp h2
  refine ⟨fun e => ?_, fun e => ?_⟩
  · exact rangeV_one x2 e (Host.reduce_andi_all _ _ _ _ _ hR (ix1 e))
  · exact neV_one x1 x2 e (Host.reduce_andi_all _ _ _ _ _ hD (ix1 e))

end Cert.Hand.PreDecode

end
-- ==== Proof.RegionPoint.lean ====
/-
  One grid point of the second program's kernel region. Point t stages rows [5000·t, 5000·t + 5000) of the two
  launched arrays [125000, 128], multiplies them entry by entry, and writes the product back to the same rows of the
  output array: all three windows have block index (t, 0). So what point t writes back is block t of ONE array, the
  entrywise product of the two launched arrays, whatever those hold.
-/
import proofs.«421623_j91096256348925_3_alg».proof.Proof.Gen.KernelIdeal.Frame
import Idealize.ShloMosaic.Lib.Pipeline.Value
import Idealize.ShloMosaic.Lib.StableHlo.Run

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero_off : (![0, 0] : Fin 2 → Nat) = fun _ => 0 := funext fun a => by fin_cases a <;> rfl

/-- The entrywise product of two [125000, 128] arrays. -/
abbrev prodOf (a0 a1 : S125000x128.Idx → Elt F .f32) : S125000x128.Idx → Elt F .f32 :=
  fun i => FloatOps.mulf (a0 i) (a1 i)

/-- The body's one stored value is the product of its two loaded blocks (the two casts to the same shape are
    the identity). -/
theorem payload_eq (x0 x1 : Vec F S5000x128 .f32) : k0_pay1 x0 x1 = mulf x0 x1 := by
  unfold k0_pay1
  simp only [shapeCast_self]

/-- The three index maps agree at every grid point, and the block index is (t, 0) with t ≤ 24. -/
theorem index_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 24 ∧ win0_2.index t (1 : Fin 2) = 0 :=
  (by decide +kernel : ∀ t : Fin grid0.N, _)

/-- The same block of two arrays, multiplied entry by entry, is that block of their entrywise product: the three
    windows' blocks at point t sit at the same rows. -/
theorem block_prod (t : Fin cfg0.N) (A0 A1 : S125000x128.Idx → Elt F .f32) :
    (cfg0.win 2).cut (grid0.coords t)
        (mulf (((cfg0.win 0).blk t).view.read (Elt F) A0) (((cfg0.win 1).blk t).view.read (Elt F) A1))
      = ((cfg0.win 2).blk t).view.read (Elt F) (prodOf A0 A1) := by
  obtain ⟨e0, e1, e2, e3, e4, e5⟩ := index_facts t
  funext j
  show FloatOps.mulf (A0 (((cfg0.win 0).blk t).view.emb j)) (A1 (((cfg0.win 1).blk t).view.emb j))
    = FloatOps.mulf (A0 (((cfg0.win 2).blk t).view.emb j)) (A1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 128 + 1 * (j 1).val = win0_2.index t (1 : Fin 2) * 128 + 1 * (j 1).val; omega
  rw [h0, h1]

/-- What point t writes back is block t of the entrywise product of the two launched arrays. The arrays are named
    before anything is compared, so that what they hold is never looked into. -/
theorem flushed_eq (c : Dev nD) (t : Fin cfg0.N) :
    (dats m 0 c).flushed 2 t
      = ((cfg0.win 2).blk t).view.read (Elt F)
          (prodOf (V m c (Pipeline.arrRef spec0 0)) (V m c (Pipeline.arrRef spec0 1))) := by
  show (cfg0.win 2).cut (grid0.coords t) ((dats m 0 c).after 2 t) = _
  rw [after0_2]
  unfold out0_2 iblk
  generalize V m c (Pipeline.arrRef spec0 0) = A0
  generalize V m c (Pipeline.arrRef spec0 1) = A1
  rw [View.canon_unit_zero zero_off]
  simp only [View.ld_unit_zero (S := S5000x128) zero_off]
  rw [payload_eq]
  exact block_prod t A0 A1

end Cert.KernelIdeal.RegionValue

end
-- ==== Proof.RegionCover.lean ====
/-
  The 25 blocks of the second program's output window tile its [125000, 128] array: point t's block is rows
  [5000·t, 5000·t + 5000), all 128 lanes, so row r lies in the block of point r / 5000.
-/
import proofs.«421623_j91096256348925_3_alg».proof.Proof.Gen.KernelIdeal.Frame
import Idealize.ShloMosaic.Lib.Pipeline.Value
import Idealize.ShloMosaic.Lib.StableHlo.Run

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Every row block is some point's. -/
theorem index_onto : ∀ q0 : Fin 25, ∃ t : Fin cfg0.N, win0_2.index t = ![q0.val, 0] :=
  (by decide +kernel : ∀ q0 : Fin 25, ∃ t : Fin grid0.N, win0_2.index t = ![q0.val, 0])

/-- An index of the output array is in point t's block iff each coordinate is in the block's range. -/
theorem mem_block (t : Fin cfg0.N) (i : S125000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_call0_v36).slice (win0_2.rect t)).set ↔ _
  rw [View.set_slice_whole, Rect.mem_set_unit]
  exact Iff.rfl

/-- Every index of the output array is in some point's block: row r in block r / 5000. -/
theorem covered (i : S125000x128.Idx) :
    ∃ t : Fin cfg0.N, (cfg0.win 2).flush t = true ∧ i ∈ ((cfg0.win 2).blk t).view.set := by
  have hi0 : (i 0).val < 125000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

end Cert.KernelIdeal.RegionValue

end
-- ==== Proof.RegionRun.lean ====
/-
  The second program's run, read. Every point of the kernel region writes back its block of the entrywise product
  of the two launched arrays, and the blocks tile the output array; so after the region the output array IS that
  product. The one host operation after the region reshapes it to a vector of 16000000, which is the program's
  result; the three argument arrays end as launched.
-/
import proofs.«421623_j91096256348925_3_alg».proof.Proof.Gen.KernelIdeal.Frame
import proofs.«421623_j91096256348925_3_alg».proof.Proof.RegionPoint
import proofs.«421623_j91096256348925_3_alg».proof.Proof.RegionCover
import Idealize.ShloMosaic.Lib.Pipeline.Value
import Idealize.ShloMosaic.Lib.StableHlo.Run

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the region the output array is the entrywise product of the two launched arrays. -/
theorem final (c : Dev nD) :
    (dats m 0 c).arrAt 2 cfg0.N
      = prodOf (V m c (Pipeline.arrRef spec0 0)) (V m c (Pipeline.arrRef spec0 1)) :=
  (dats m 0 c).arrAt_eq_of_cover 2 _ (fun t _ => flushed_eq m c t) covered

/-- The result buffer after the one host operation that follows the region: the output array as a vector. -/
theorem tail_eq (c : Dev nD) :
    Pipeline.afterTail₀ cfgs (dats m) 0 (V0 m) [hostOps1] c main_v0
      = shapeCast S16000000 ((dats m 0 c).arrAt 2 cfg0.N) shapeCasts_S125000x128_S16000000 := by
  unfold Pipeline.afterTail₀
  show StableHlo.after hostOps1 _ (Proc.devRef .tc main_v0) = _
  after_results
  rw [Pipeline.withArrays_arr spec0 launch0.win.arr_inj c _ _ 2]
  rfl

/-- The run, with the result buffer named and the arguments unchanged. -/
theorem run : θ_run defs (onTc (τ := τ) (main (F := F))) ⟨m, fun _ => 0, ρ⟩ fun r => ∀ c : Dev nD,
      r.2.mem ((c.tc : Thread nD τ).loc main_v0)
        = shapeCast S16000000 (prodOf (V m c (Pipeline.arrRef spec0 0)) (V m c (Pipeline.arrRef spec0 1)))
            shapeCasts_S125000x128_S16000000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v0 (Pipeline.mem_restRefs_of main_v0 (by decide) (by decide))).trans
          ((tail_eq m c).trans (by rw [final])),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.RegionValue

end
-- ==== Proof.HostTerm.lean ====
/-
  The second program's host operations BEFORE its one kernel region, as pure functions of the three argument
  arrays: one definition per printed operation, in program order, each applying the operation's own function to
  the earlier stages. The two arrays the region is launched on are the last two:

    * `a2d`  — column 0 of the edge table, laid out [125000, 128];
    * `f2d`  — the per-vertex factor looked up at every edge's source word, laid out [125000, 128].

  On the way: the source words (row 0 of the pair table), the three edge columns, the two-column stack
  [A, A·S·v], its accumulating scatter into a [500000, 2] table of zeros at the source words, the two columns of
  that table (numerator, denominator), the denominator with its zero entries replaced by 1, the two quotients,
  the factor −(1 − C)·α, and the lookup: the word wrapped when negative, the test that the wrapped word is a
  vertex, the clamped gather, and the select between the gathered value and a fill word where the test fails.
  Nothing is proved here; a sibling module shows the region finds exactly these arrays, another reads them at an
  index.
-/
import proofs.«421623_j91096256348925_3_alg».proof.KernelIdeal

noncomputable section

namespace Cert.KernelIdeal.HostTerm

open Cert.KernelIdeal Idealize.ShloMosaic

variable {F : FTy → Type} [FloatOps F] [Facts]
open Facts₀ Facts

/-- The source words: row 0 of the pair table, as a vector. -/
def srcv (x2 : IVec S2x16000000 32) : IVec S16000000 32 :=
  shapeCast S16000000 (extractStridedSlice S1x16000000 ![0, 0] x2 slices_S2x16000000_S1x16000000_0_0) shapeCasts_S1x16000000_S16000000

/-- The three columns of the edge table, as vectors. -/
def col0 (x1 : FVec F S16000000x3 .f32) : FVec F S16000000 .f32 :=
  shapeCast S16000000 (extractStridedSlice S16000000x1 ![0, 0] x1 slices_S16000000x3_S16000000x1_0_0) shapeCasts_S16000000x1_S16000000
def col1 (x1 : FVec F S16000000x3 .f32) : FVec F S16000000 .f32 :=
  shapeCast S16000000 (extractStridedSlice S16000000x1 ![0, 1] x1 slices_S16000000x3_S16000000x1_0_1) shapeCasts_S16000000x1_S16000000
def col2 (x1 : FVec F S16000000x3 .f32) : FVec F S16000000 .f32 :=
  shapeCast S16000000 (extractStridedSlice S16000000x1 ![0, 2] x1 slices_S16000000x3_S16000000x1_0_2) shapeCasts_S16000000x1_S16000000

/-- A·S·v, edge by edge. -/
def prod3 (x1 : FVec F S16000000x3 .f32) : FVec F S16000000 .f32 :=
  mulf (mulf (col0 x1) (col1 x1)) (col2 x1)

/-- The two-column stack [A, A·S·v]. -/
def stacked (x1 : FVec F S16000000x3 .f32) : FVec F S16000000x2 .f32 :=
  concatenate S16000000x2 1
    [⟨S16000000x1, broadcastInDim S16000000x1 ![0] bcast_S16000000_S16000000x1_0 (col0 x1)⟩,
     ⟨S16000000x1, broadcastInDim S16000000x1 ![0] bcast_S16000000_S16000000x1_0 (prod3 x1)⟩]
    concatenates_S16000000x1_S16000000x1_S16000000x2_d1

/-- The source words as a column of start indices. -/
def srcCol (x2 : IVec S2x16000000 32) : IVec S16000000x1 32 :=
  broadcastInDim S16000000x1 ![0] bcast_S16000000_S16000000x1_0 (srcv x2)

/-- The stack accumulated into a table of zeros at the source words. -/
def summed (x1 : FVec F S16000000x3 .f32) (x2 : IVec S2x16000000 32) : FVec F S500000x2 .f32 :=
  Host.scatterAdd scatter_S500000x2_S16000000x1_S16000000x2_1_0_0_1
    (broadcastInDim S500000x2 ![] bcast_S_S500000x2 (constant S_ .f32 0x00000000#32)) (srcCol x2) (stacked x1)

/-- Its two columns. -/
def numer (x1 : FVec F S16000000x3 .f32) (x2 : IVec S2x16000000 32) : FVec F S500000 .f32 :=
  shapeCast S500000 (extractStridedSlice S500000x1 ![0, 0] (summed x1 x2) slices_S500000x2_S500000x1_0_0) shapeCasts_S500000x1_S500000
def denom (x1 : FVec F S16000000x3 .f32) (x2 : IVec S2x16000000 32) : FVec F S500000 .f32 :=
  shapeCast S500000 (extractStridedSlice S500000x1 ![0, 1] (summed x1 x2) slices_S500000x2_S500000x1_0_1) shapeCasts_S500000x1_S500000

/-- The denominator with 1 in place of its zero entries. -/
def denomSafe (x1 : FVec F S16000000x3 .f32) (x2 : IVec S2x16000000 32) : FVec F S500000 .f32 :=
  select (cmpf .oeq (denom x1 x2) (broadcastInDim S500000 ![] bcast_S_S500000 (constant S_ .f32 0x00000000#32)))
    (broadcastInDim S500000 ![] bcast_S_S500000 (id (constant S_ .f32 0x3F800000#32)))
    (denom x1 x2)

/-- The two columns of the vertex table. -/
def vcol0 (x0 : FVec F S500000x2 .f32) : FVec F S500000 .f32 :=
  shapeCast S500000 (extractStridedSlice S500000x1 ![0, 0] x0 slices_S500000x2_S500000x1_0_0) shapeCasts_S500000x1_S500000
def vcol1 (x0 : FVec F S500000x2 .f32) : FVec F S500000 .f32 :=
  shapeCast S500000 (extractStridedSlice S500000x1 ![0, 1] x0 slices_S500000x2_S500000x1_0_1) shapeCasts_S500000x1_S500000

/-- α = (numerator / safe denominator) / Aii. -/
def alphaV (x0 : FVec F S500000x2 .f32) (x1 : FVec F S16000000x3 .f32) (x2 : IVec S2x16000000 32) : FVec F S500000 .f32 :=
  Host.divf (Host.divf (numer x1 x2) (denomSafe x1 x2)) (vcol0 x0)

/-- The per-vertex factor −(1 − C)·α. -/
def facV (x0 : FVec F S500000x2 .f32) (x1 : FVec F S16000000x3 .f32) (x2 : IVec S2x16000000 32) : FVec F S500000 .f32 :=
  mulf (Host.negf (subf (broadcastInDim S500000 ![] bcast_S_S500000 (constant S_ .f32 0x3F800000#32)) (vcol1 x0))) (alphaV x0 x1 x2)

/-- The source words with the negative ones counted from the end. -/
def wrapped (x2 : IVec S2x16000000 32) : IVec S16000000 32 :=
  select (cmpi .slt (srcv x2) (broadcastInDim S16000000 ![] bcast_S_S16000000 (constantI S_ 32 0#32)))
    (addi (srcv x2) (broadcastInDim S16000000 ![] bcast_S_S16000000 (constantI S_ 32 500000#32)))
    (srcv x2)

/-- … as a column of start indices. -/
def wrappedCol (x2 : IVec S2x16000000 32) : IVec S16000000x1 32 :=
  broadcastInDim S16000000x1 ![0] bcast_S16000000_S16000000x1_0 (wrapped x2)

/-- The test "the wrapped word is a vertex": 0 ≤ word ≤ 499999, reduced over the column's one entry. -/
def inBounds (x2 : IVec S2x16000000 32) : IVec S16000000 1 :=
  Host.reduce IntOp.andi
    (andi (cmpi .sge (wrappedCol x2) (broadcastInDim S16000000x1 ![] bcast_S_S16000000x1 (constantI S_ 32 0#32)))
          (cmpi .sle (wrappedCol x2)
            (broadcastInDim S16000000x1 ![0, 1] bcast_S1x1_S16000000x1_0_1
              (broadcastInDim S1x1 ![1] bcast_S1_S1x1_1 (constantI S1 32 499999#32)))))
    (constantI S_ 1 1#1) reducesTo_S16000000x1_S16000000_d1 h_S_

/-- The factor looked up at every edge: the clamped gather where the test holds, a fill word where it fails. -/
def taken (x0 : FVec F S500000x2 .f32) (x1 : FVec F S16000000x3 .f32) (x2 : IVec S2x16000000 32) : FVec F S16000000 .f32 :=
  select (inBounds x2)
    (Host.gather gather_S500000_S16000000x1_S16000000_n_0_n_n_0_1_1 (facV x0 x1 x2) (wrappedCol x2))
    (broadcastInDim S16000000 ![] bcast_S_S16000000 (constant S_ .f32 0x7FC00000#32))

/-- The two arrays the region is launched on. -/
def a2d (x1 : FVec F S16000000x3 .f32) : FVec F S125000x128 .f32 :=
  shapeCast S125000x128 (col0 x1) shapeCasts_S16000000_S125000x128
def f2d (x0 : FVec F S500000x2 .f32) (x1 : FVec F S16000000x3 .f32) (x2 : IVec S2x16000000 32) : FVec F S125000x128 .f32 :=
  shapeCast S125000x128 (taken x0 x1 x2) shapeCasts_S16000000_S125000x128

end Cert.KernelIdeal.HostTerm

end
-- ==== Proof.KernelFound.lean ====
/-
  What the second program's kernel region FINDS in the two arrays it is launched on: after the host operations
  before the region, the first array holds column 0 of the edge table laid out [125000, 128], the second the
  looked-up per-vertex factor laid out the same way — the two last stages of the host chain, each the composition
  of the operations' own functions applied to the three argument arrays as launched.

  The chain is read in four stretches. The first twelve operations cut the source words and the three edge
  columns out of the arguments and lay A and A·S·v out as columns; what they leave in four buffers is stated once.
  The next forty-five (the two-column stack, the scatter, the quotients, the factor, the wrapped source words and
  the test that they are vertices) are read over ANY contents of those four buffers; the next four (the clamped
  gather and the select against the fill word) over ANY contents of the three buffers they read; the last two (the
  reshapes) over ANY contents of the one buffer they read: no stretch looks into the one before it.
-/
import proofs.«421623_j91096256348925_3_alg».proof.Proof.Gen.KernelIdeal.Frame
import proofs.«421623_j91096256348925_3_alg».proof.Proof.HostTerm
import Idealize.ShloMosaic.Lib.StableHlo.Run

set_option maxRecDepth 16384

noncomputable section

namespace Cert.KernelIdeal.Found

open Cert.KernelIdeal Cert.KernelIdeal.Gen Idealize.ShloMosaic Idealize.ShloMosaic.TcCoe Idealize.SL.Sem Idealize.ShloMosaic.StableHlo

variable {F : FTy → Type} [FloatOps F]

/-- The contents after a line of operations are the contents after its tail, from the contents after its head. -/
theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

/-- … cut at any position. -/
theorem after_split (n : Nat) (ops : List (HloOp τ sig (Elt F))) (W : Valuation τ sig (Elt F)) :
    after ops W = after (ops.drop n) (after (ops.take n) W) := by
  conv_lhs => rw [← List.take_append_drop n ops]
  exact after_append _ _ _

variable (m : (ℓ : Loc nD τ sig) → Buf (Elt F) ℓ)

set_option maxHeartbeats 4000000 in
/-- The first launched array is column 0 of the edge table, as launched, in the [125000, 128] layout. -/
theorem found_a2d (c : Dev nD) :
    V m c main_call0_v34 = HostTerm.a2d (F := F) (m ((c.tc : Thread nD τ).loc main_arg1)) := by
  dsimp only [V, V0]
  simp only [hostOps0, List.flatten_cons, List.flatten_nil, List.append_nil, List.cons_append, List.nil_append]
  after_results_simp <;> rfl

/-! ## What the first twelve operations leave -/

set_option maxHeartbeats 1000000 in
/-- Column A, laid out as a column. -/
theorem first_v10 (c : Dev nD) :
    after (List.take 12 (hostOps0 (F := F))) (fun b => m (c, b)) (Proc.devRef .tc main_call0_v10)
      = broadcastInDim S16000000x1 ![0] Facts₀.bcast_S16000000_S16000000x1_0
          (HostTerm.col0 (F := F) (m ((c.tc : Thread nD τ).loc main_arg1))) := by
  simp only [hostOps0, List.take_succ_cons, List.take_zero]
  after_results_simp <;> rfl

set_option maxHeartbeats 1000000 in
/-- The product A·S·v, laid out as a column. -/
theorem first_v11 (c : Dev nD) :
    after (List.take 12 (hostOps0 (F := F))) (fun b => m (c, b)) (Proc.devRef .tc main_call0_v11)
      = broadcastInDim S16000000x1 ![0] Facts₀.bcast_S16000000_S16000000x1_0
          (HostTerm.prod3 (F := F) (m ((c.tc : Thread nD τ).loc main_arg1))) := by
  simp only [hostOps0, List.take_succ_cons, List.take_zero]
  after_results_simp <;> rfl

set_option maxHeartbeats 1000000 in
/-- The source words. -/
theorem first_v1 (c : Dev nD) :
    after (List.take 12 (hostOps0 (F := F))) (fun b => m (c, b)) (Proc.devRef .tc main_call0_v1)
      = HostTerm.srcv (m ((c.tc : Thread nD τ).loc main_arg2)) := by
  simp only [hostOps0, List.take_succ_cons, List.take_zero]
  after_results_simp <;> rfl

set_option maxHeartbeats 1000000 in
/-- The vertex table is not written. -/
theorem first_arg0 (c : Dev nD) :
    after (List.take 12 (hostOps0 (F := F))) (fun b => m (c, b)) (Proc.devRef .tc main_arg0)
      = m ((c.tc : Thread nD τ).loc main_arg0) := by
  simp only [hostOps0, List.take_succ_cons, List.take_zero]
  after_results_simp <;> rfl

/-! ## The next forty-five operations, over any contents of those four buffers

From the two-column stack to the test that the wrapped source word is a vertex. Three of their results are read
later: the per-vertex factor, the wrapped source words as a column, and the test. -/

set_option maxHeartbeats 4000000 in
/-- The per-vertex factor. -/
theorem mid_v32 (c : Dev nD) (W1 : Valuation τ sig (Elt F))
    (h10 : W1 (Proc.devRef .tc main_call0_v10)
      = broadcastInDim S16000000x1 ![0] Facts₀.bcast_S16000000_S16000000x1_0
          (HostTerm.col0 (F := F) (m ((c.tc : Thread nD τ).loc main_arg1))))
    (h11 : W1 (Proc.devRef .tc main_call0_v11)
      = broadcastInDim S16000000x1 ![0] Facts₀.bcast_S16000000_S16000000x1_0
          (HostTerm.prod3 (F := F) (m ((c.tc : Thread nD τ).loc main_arg1))))
    (h1 : W1 (Proc.devRef .tc main_call0_v1) = HostTerm.srcv (m ((c.tc : Thread nD τ).loc main_arg2)))
    (h0 : W1 (Proc.devRef .tc main_arg0) = m ((c.tc : Thread nD τ).loc main_arg0)) :
    after (List.take 45 (List.drop 12 (hostOps0 (F := F)))) W1 (Proc.devRef .tc main_call0_v32)
      = HostTerm.facV (F := F) (m ((c.tc : Thread nD τ).loc main_arg0)) (m ((c.tc : Thread nD τ).loc main_arg1))
          (m ((c.tc : Thread nD τ).loc main_arg2)) := by
  simp only [hostOps0, List.drop_succ_cons, List.drop_zero, List.take_succ_cons, List.take_zero]
  after_results_simp
  rw [h10, h11, h1, h0]
  rfl

set_option maxHeartbeats 4000000 in
/-- The wrapped source words, as a column. -/
theorem mid_v5 (c : Dev nD) (W1 : Valuation τ sig (Elt F))
    (h1 : W1 (Proc.devRef .tc main_call0_v1) = HostTerm.srcv (m ((c.tc : Thread nD τ).loc main_arg2))) :
    after (List.take 45 (List.drop 12 (hostOps0 (F := F)))) W1 (Proc.devRef .tc main_call0_call1_v5)
      = HostTerm.wrappedCol (m ((c.tc : Thread nD τ).loc main_arg2)) := by
  simp only [hostOps0, List.drop_succ_cons, List.drop_zero, List.take_succ_cons, List.take_zero]
  after_results_simp
  rw [h1]
  rfl

set_option maxHeartbeats 4000000 in
/-- The test that the wrapped source word is a vertex. The reduction over the column's one entry is compared
    argument by argument (its own definition, a fold over every index, is never opened): the contents of the result
    buffer are first read as the reduction itself. -/
theorem mid_v12 (c : Dev nD) (W1 : Valuation τ sig (Elt F))
    (h1 : W1 (Proc.devRef .tc main_call0_v1) = HostTerm.srcv (m ((c.tc : Thread nD τ).loc main_arg2))) :
    after (List.take 45 (List.drop 12 (hostOps0 (F := F)))) W1 (Proc.devRef .tc main_call0_call1_v12)
      = HostTerm.inBounds (m ((c.tc : Thread nD τ).loc main_arg2)) := by
  simp only [hostOps0, List.drop_succ_cons, List.drop_zero, List.take_succ_cons, List.take_zero]
  after_results_simp
  rw [h1]
  refine (cast_eq _ _).trans ?_
  unfold HostTerm.inBounds
  rfl

/-! ## The next four operations, over any contents of those three buffers -/

set_option maxHeartbeats 4000000 in
/-- The looked-up factor: the clamped gather where the test holds, the fill word where it fails. -/
theorem last_v33 (c : Dev nD) (W2 : Valuation τ sig (Elt F))
    (g32 : W2 (Proc.devRef .tc main_call0_v32) = HostTerm.facV (F := F) (m ((c.tc : Thread nD τ).loc main_arg0)) (m ((c.tc : Thread nD τ).loc main_arg1))
          (m ((c.tc : Thread nD τ).loc main_arg2)))
    (g5 : W2 (Proc.devRef .tc main_call0_call1_v5) = HostTerm.wrappedCol (m ((c.tc : Thread nD τ).loc main_arg2)))
    (g12 : W2 (Proc.devRef .tc main_call0_call1_v12) = HostTerm.inBounds (m ((c.tc : Thread nD τ).loc main_arg2))) :
    after (List.take 4 (List.drop 45 (List.drop 12 (hostOps0 (F := F))))) W2 (Proc.devRef .tc main_call0_v33)
      = HostTerm.taken (F := F) (m ((c.tc : Thread nD τ).loc main_arg0)) (m ((c.tc : Thread nD τ).loc main_arg1))
          (m ((c.tc : Thread nD τ).loc main_arg2)) := by
  simp only [hostOps0, List.drop_succ_cons, List.drop_zero, List.take_succ_cons, List.take_zero]
  after_results_simp
  rw [g32, g5, g12]
  unfold HostTerm.taken
  generalize HostTerm.facV (F := F) (m ((c.tc : Thread nD τ).loc main_arg0)) (m ((c.tc : Thread nD τ).loc main_arg1))
          (m ((c.tc : Thread nD τ).loc main_arg2)) = fv
  generalize HostTerm.wrappedCol (m ((c.tc : Thread nD τ).loc main_arg2)) = wc
  generalize HostTerm.inBounds (m ((c.tc : Thread nD τ).loc main_arg2)) = ib
  refine (cast_eq _ _).trans ?_
  rfl

/-! ## The last two operations, over any contents of that buffer -/

set_option maxHeartbeats 4000000 in
/-- The looked-up factor in the [125000, 128] layout. -/
theorem last_v35 (c : Dev nD) (W3 : Valuation τ sig (Elt F))
    (k33 : W3 (Proc.devRef .tc main_call0_v33) = HostTerm.taken (F := F) (m ((c.tc : Thread nD τ).loc main_arg0)) (m ((c.tc : Thread nD τ).loc main_arg1))
          (m ((c.tc : Thread nD τ).loc main_arg2))) :
    after (List.drop 4 (List.drop 45 (List.drop 12 (hostOps0 (F := F))))) W3 (Proc.devRef .tc main_call0_v35)
      = HostTerm.f2d (F := F) (m ((c.tc : Thread nD τ).loc main_arg0)) (m ((c.tc : Thread nD τ).loc main_arg1))
          (m ((c.tc : Thread nD τ).loc main_arg2)) := by
  simp only [hostOps0, List.drop_succ_cons, List.drop_zero, List.take_succ_cons, List.take_zero]
  after_results_simp
  rw [k33]
  unfold HostTerm.f2d
  generalize HostTerm.taken (F := F) (m ((c.tc : Thread nD τ).loc main_arg0)) (m ((c.tc : Thread nD τ).loc main_arg1))
          (m ((c.tc : Thread nD τ).loc main_arg2)) = tk
  rfl

/-! ## The chain, cut in four -/

set_option maxHeartbeats 4000000 in
/-- The second launched array is the looked-up factor of the three arguments, as launched, in the same layout. -/
theorem found_f2d (c : Dev nD) :
    V m c main_call0_v35 = HostTerm.f2d (F := F) (m ((c.tc : Thread nD τ).loc main_arg0))
      (m ((c.tc : Thread nD τ).loc main_arg1)) (m ((c.tc : Thread nD τ).loc main_arg2)) := by
  dsimp only [V, V0]
  simp only [List.flatten_cons, List.flatten_nil, List.append_nil]
  rw [after_split 12 hostOps0, after_split 45 (List.drop 12 hostOps0),
    after_split 4 (List.drop 45 (List.drop 12 hostOps0))]
  have h10 := first_v10 m c
  have h11 := first_v11 m c
  have h1 := first_v1 m c
  have h0 := first_arg0 m c
  generalize after (List.take 12 (hostOps0 (F := F))) (fun b => m (c, b)) = W1 at h10 h11 h1 h0 ⊢
  have g32 := mid_v32 m c W1 h10 h11 h1 h0
  have g5 := mid_v5 m c W1 h1
  have g12 := mid_v12 m c W1 h1
  generalize after (List.take 45 (List.drop 12 (hostOps0 (F := F)))) W1 = W2 at g32 g5 g12 ⊢
  have k33 := last_v33 m c W2 g32 g5 g12
  generalize after (List.take 4 (List.drop 45 (List.drop 12 (hostOps0 (F := F))))) W2 = W3 at k33 ⊢
  exact last_v35 m c W3 k33

end Cert.KernelIdeal.Found

end
-- ==== Proof.HostSums.lean ====
/-
  The second program's two per-vertex sums. Its one accumulating scatter adds the two-column stack [A, A·S·v] of
  every edge into row (the edge's source word read signed) of a [500000, 2] table of zeros; column 0 of the table
  at vertex n is therefore Σ A over the edges whose word is n, column 1 is Σ A·S·v over them: the specification's
  `num` and `den`.

  The steps, each read at an index: a flattened column or row is the column or row itself; the source-word vector
  is row 0 of the pair table; the three edge columns are the columns of the edge table; the stack's two columns
  are A and A·S·v; the scatter into the zero table at (n, q) is the sum of the stack's column q over the edges
  whose source word read signed is n.
-/
import proofs.«421623_j91096256348925_3_alg».proof.Proof.Gen.KernelIdeal
import proofs.«421623_j91096256348925_3_alg».proof.Proof.HostTerm
import proofs.«421623_j91096256348925_3_alg».proof.Proof.Spec
import proofs.«421623_j91096256348925_3_alg».proof.Proof.LibRowGatherScatter
import Idealize.ShloMosaic.Lib.Pipeline.Value

noncomputable section

open scoped BigOperators

namespace Cert.Hand.HostSums

open Idealize.ShloMosaic Idealize.ShloMosaic.ValueIdx Cert.Hand Cert.KernelIdeal
open Cert.ReferenceIdeal.Hand (rowScatter rowScatterAdd_apply bcastScalar_apply bcastCol_apply)
open Facts₀ Facts

/-- A column vector [E, 1] flattened to [E] reads the column at (e, 0). -/
theorem flatCol_apply {α : Type} {E : Nat} (h : (⟨2, ![E, 1]⟩ : Shape).ShapeCasts ⟨1, ![E]⟩)
    (y : (⟨2, ![E, 1]⟩ : Shape).Idx → α) (e : Fin E) :
    shapeCast ⟨1, ![E]⟩ y h (ix1 e) = y (ix2 e (0 : Fin 1)) := by
  refine shapeCast_apply y h (ix1 e) (ix2 e (0 : Fin 1)) ?_
  rewrite [Shape.rowMajor_val_two, Shape.rowMajor_val_one]
  show e.val * 1 + 0 = e.val
  omega

/-- A row vector [1, E] flattened to [E] reads the row at (0, e). -/
theorem flatRow_apply {α : Type} {E : Nat} (h : (⟨2, ![1, E]⟩ : Shape).ShapeCasts ⟨1, ![E]⟩)
    (y : (⟨2, ![1, E]⟩ : Shape).Idx → α) (e : Fin E) :
    shapeCast ⟨1, ![E]⟩ y h (ix1 e) = y (ix2 (0 : Fin 1) e) := by
  refine shapeCast_apply y h (ix1 e) (ix2 (0 : Fin 1) e) ?_
  rewrite [Shape.rowMajor_val_two, Shape.rowMajor_val_one]
  show 0 * E + e.val = e.val
  omega

/-- The source-word vector at edge e is the pair table at (0, e): the specification's source word. -/
theorem srcv_apply (x2 : IVec Spec.SPair 32) (e : Fin 16000000) :
    HostTerm.srcv x2 (ix1 e) = Spec.src x2 e := by
  unfold HostTerm.srcv Spec.src
  rw [flatRow_apply]
  refine extractStridedSlice_apply ![0, 0] x2 slices_S2x16000000_S1x16000000_0_0 _ (ix2 (0 : Fin 2) e) (fun a => ?_)
  match a with
  | ⟨0, _⟩ => rfl
  | ⟨1, _⟩ => show e.val = 0 + e.val; omega

/-- Column 0 of the edge table, cut out as an [E, 1] slice and flattened, reads the table at (e, 0). -/
theorem col0_apply (x1 : FVec Ideal Spec.SEdge .f32) (e : Fin 16000000) :
    HostTerm.col0 (F := Ideal) x1 (ix1 e) = Spec.colA x1 e := by
  unfold HostTerm.col0 Spec.colA
  rw [flatCol_apply]
  refine extractStridedSlice_apply ![0, 0] x1 slices_S16000000x3_S16000000x1_0_0 _ (ix2 e (0 : Fin 3)) (fun a => ?_)
  match a with
  | ⟨0, _⟩ => show e.val = 0 + e.val; omega
  | ⟨1, _⟩ => rfl

/-- Column 1 likewise. -/
theorem col1_apply (x1 : FVec Ideal Spec.SEdge .f32) (e : Fin 16000000) :
    HostTerm.col1 (F := Ideal) x1 (ix1 e) = Spec.colS x1 e := by
  unfold HostTerm.col1 Spec.colS
  rw [flatCol_apply]
  refine extractStridedSlice_apply ![0, 1] x1 slices_S16000000x3_S16000000x1_0_1 _ (ix2 e (1 : Fin 3)) (fun a => ?_)
  match a with
  | ⟨0, _⟩ => show e.val = 0 + e.val; omega
  | ⟨1, _⟩ => rfl

/-- Column 2 likewise. -/
theorem col2_apply (x1 : FVec Ideal Spec.SEdge .f32) (e : Fin 16000000) :
    HostTerm.col2 (F := Ideal) x1 (ix1 e) = Spec.colV x1 e := by
  unfold HostTerm.col2 Spec.colV
  rw [flatCol_apply]
  refine extractStridedSlice_apply ![0, 2] x1 slices_S16000000x3_S16000000x1_0_2 _ (ix2 e (2 : Fin 3)) (fun a => ?_)
  match a with
  | ⟨0, _⟩ => show e.val = 0 + e.val; omega
  | ⟨1, _⟩ => rfl

/-- A·S·v at edge e. -/
theorem prod3_apply (x1 : FVec Ideal Spec.SEdge .f32) (e : Fin 16000000) :
    HostTerm.prod3 (F := Ideal) x1 (ix1 e) = Spec.colA x1 e * Spec.colS x1 e * Spec.colV x1 e := by
  unfold HostTerm.prod3
  rw [mulf_apply, mulf_apply, col0_apply, col1_apply, col2_apply]

/-- The start word of edge e in the column of start indices is the specification's source word. -/
theorem srcCol_apply (x2 : IVec Spec.SPair 32) (e : Fin 16000000) :
    HostTerm.srcCol x2 (ix2 e (0 : Fin 1)) = Spec.src x2 e := by
  unfold HostTerm.srcCol
  rw [bcastCol_apply, srcv_apply]

/-- Two columns [E, 1] set side by side: at (e, 0) the pair reads the first column at (e, 0). -/
theorem pair_apply_zero {α : Type} {E : Nat}
    (h : Shape.Concatenates [(⟨2, ![E, 1]⟩ : Shape), (⟨2, ![E, 1]⟩ : Shape)] ⟨2, ![E, 2]⟩ 1)
    (y₁ y₂ : (⟨2, ![E, 1]⟩ : Shape).Idx → α) (e : Fin E) :
    concatenate (⟨2, ![E, 2]⟩ : Shape) 1 [⟨⟨2, ![E, 1]⟩, y₁⟩, ⟨⟨2, ![E, 1]⟩, y₂⟩] h (ix2 e (0 : Fin 2))
      = y₁ (ix2 e (0 : Fin 1)) := by
  refine concatenate_pair_apply_left (t := ⟨2, ![E, 2]⟩) (s₁ := ⟨2, ![E, 1]⟩) (s₂ := ⟨2, ![E, 1]⟩)
    (1 : Fin 2) y₁ y₂ h (ix2 e (0 : Fin 2)) rfl (ix2 e (0 : Fin 1)) (fun b => ?_)
  match b with
  | ⟨0, _⟩ => rfl
  | ⟨1, _⟩ => rfl

/-- … and at (e, 1) the second column at (e, 0). -/
theorem pair_apply_one {α : Type} {E : Nat}
    (h : Shape.Concatenates [(⟨2, ![E, 1]⟩ : Shape), (⟨2, ![E, 1]⟩ : Shape)] ⟨2, ![E, 2]⟩ 1)
    (y₁ y₂ : (⟨2, ![E, 1]⟩ : Shape).Idx → α) (e : Fin E) :
    concatenate (⟨2, ![E, 2]⟩ : Shape) 1 [⟨⟨2, ![E, 1]⟩, y₁⟩, ⟨⟨2, ![E, 1]⟩, y₂⟩] h (ix2 e (1 : Fin 2))
      = y₂ (ix2 e (0 : Fin 1)) := by
  refine concatenate_pair_apply_right (t := ⟨2, ![E, 2]⟩) (s₁ := ⟨2, ![E, 1]⟩) (s₂ := ⟨2, ![E, 1]⟩)
    (1 : Fin 2) y₁ y₂ h (ix2 e (1 : Fin 2)) rfl rfl (ix2 e (0 : Fin 1)) (fun b hb => ?_) rfl
  match b with
  | ⟨0, _⟩ => rfl
  | ⟨1, _⟩ => exact absurd rfl hb

/-- Column 0 of the two-column stack at edge e is A e. -/
theorem stacked_apply_zero (x1 : FVec Ideal Spec.SEdge .f32) (e : Fin 16000000) :
    HostTerm.stacked (F := Ideal) x1 (ix2 e (0 : Fin 2)) = Spec.colA x1 e := by
  unfold HostTerm.stacked
  rw [pair_apply_zero, bcastCol_apply, col0_apply]

/-- Column 1 of the two-column stack at edge e is A e · S e · v e. -/
theorem stacked_apply_one (x1 : FVec Ideal Spec.SEdge .f32) (e : Fin 16000000) :
    HostTerm.stacked (F := Ideal) x1 (ix2 e (1 : Fin 2)) = Spec.colA x1 e * Spec.colS x1 e * Spec.colV x1 e := by
  unfold HostTerm.stacked
  rw [pair_apply_one, bcastCol_apply, prod3_apply]

/-- The program's scatter record is the row scatter of whole [E, 2] rows into a [500000, 2] table. -/
theorem scatter_eq :
    scatter_S500000x2_S16000000x1_S16000000x2_1_0_0_1
      = rowScatter 500000 16000000 2 scatter_S500000x2_S16000000x1_S16000000x2_1_0_0_1_wf := rfl

/-- The scatter table at (n, q): the sum, over the edges whose source word read signed is n, of the stack's
    column q. The operand is the zero table, so nothing else is added. -/
theorem summed_apply (x1 : FVec Ideal Spec.SEdge .f32) (x2 : IVec Spec.SPair 32) (n : Fin 500000) (q : Fin 2) :
    HostTerm.summed (F := Ideal) x1 x2 (ix2 n q)
      = ∑ e ∈ Spec.edgesOf x2 n, HostTerm.stacked (F := Ideal) x1 (ix2 e q) := by
  unfold HostTerm.summed
  rw [scatter_eq, rowScatterAdd_apply, bcastScalar_apply, constant_apply, Ideal.ofBits_zero_f32, zero_add]
  unfold Spec.edgesOf
  refine Finset.sum_congr (Finset.filter_congr fun e _ => ?_) fun _ _ => rfl
  rw [srcCol_apply]

/-- Column 0 of the scatter table at vertex n is Σ A over the edges of n. -/
theorem numer_apply (x1 : FVec Ideal Spec.SEdge .f32) (x2 : IVec Spec.SPair 32) (n : Fin 500000) :
    HostTerm.numer (F := Ideal) x1 x2 (ix1 n) = Spec.num x1 x2 n := by
  unfold HostTerm.numer Spec.num
  rw [flatCol_apply]
  rw [extractStridedSlice_apply ![0, 0] (HostTerm.summed (F := Ideal) x1 x2) slices_S500000x2_S500000x1_0_0 _
    (ix2 n (0 : Fin 2)) (fun a => by
      match a with
      | ⟨0, _⟩ => show n.val = 0 + n.val; omega
      | ⟨1, _⟩ => rfl)]
  rw [summed_apply]
  exact Finset.sum_congr rfl fun e _ => stacked_apply_zero x1 e

/-- Column 1 of the scatter table at vertex n is Σ A·S·v over the edges of n. -/
theorem denom_apply (x1 : FVec Ideal Spec.SEdge .f32) (x2 : IVec Spec.SPair 32) (n : Fin 500000) :
    HostTerm.denom (F := Ideal) x1 x2 (ix1 n) = Spec.den x1 x2 n := by
  unfold HostTerm.denom Spec.den
  rw [flatCol_apply]
  rw [extractStridedSlice_apply ![0, 1] (HostTerm.summed (F := Ideal) x1 x2) slices_S500000x2_S500000x1_0_1 _
    (ix2 n (1 : Fin 2)) (fun a => by
      match a with
      | ⟨0, _⟩ => show n.val = 0 + n.val; omega
      | ⟨1, _⟩ => rfl)]
  rw [summed_apply]
  exact Finset.sum_congr rfl fun e _ => stacked_apply_one x1 e

end Cert.Hand.HostSums

end
-- ==== Proof.HostValue.lean ====
/-
  The two arrays the second program's kernel region is launched on, read at (row r, lane l) of their
  [125000, 128] layout: entry (r, l) belongs to edge 128·r + l.
-/
import proofs.«421623_j91096256348925_3_alg».proof.Proof.Gen.KernelIdeal
import proofs.«421623_j91096256348925_3_alg».proof.Proof.HostTerm
import proofs.«421623_j91096256348925_3_alg».proof.Proof.HostSums
import proofs.«421623_j91096256348925_3_alg».proof.Proof.Spec
import proofs.«421623_j91096256348925_3_alg».proof.Proof.LibRowGatherScatter
import Idealize.ShloMosaic.Lib.StableHlo.Predicate
import Idealize.ShloMosaic.Lib.ReduceAll
import Idealize.ShloMosaic.Lib.Pipeline.Value

noncomputable section

open scoped BigOperators

namespace Cert.Hand.HostValue

open Idealize.ShloMosaic Idealize.ShloMosaic.ValueIdx Cert.Hand Cert.KernelIdeal
open Cert.ReferenceIdeal.Hand (bcastScalar_apply bcastCol_apply bcastRow_apply wrap_select)

/-- The edge at row r, lane l of the [125000, 128] layout. -/
def edgeAt (r : Fin 125000) (l : Fin 128) : Fin 16000000 :=
  ⟨r.val * 128 + l.val, by have := r.isLt; have := l.isLt; omega⟩

/-! ## Layout reads -/

section Layout
variable {α : Type}

/-- A column [E, 1] flattened to a vector: entry e is the column's (e, 0). -/
theorem castCol_apply {E : Nat} (h : (⟨2, ![E, 1]⟩ : Shape).ShapeCasts ⟨1, ![E]⟩)
    (v : (⟨2, ![E, 1]⟩ : Shape).Idx → α) (e : Fin E) :
    shapeCast ⟨1, ![E]⟩ v h (ix1 e) = v (ix2 e 0) :=
  shapeCast_apply v h (ix1 e) (ix2 e 0)
    (by rw [Shape.rowMajor_val_two, Shape.rowMajor_val_one]; show e.val * 1 + 0 = e.val; omega)

/-- A row [1, E] flattened to a vector: entry e is the row's (0, e). -/
theorem castRow_apply {E : Nat} (h : (⟨2, ![1, E]⟩ : Shape).ShapeCasts ⟨1, ![E]⟩)
    (v : (⟨2, ![1, E]⟩ : Shape).Idx → α) (e : Fin E) :
    shapeCast ⟨1, ![E]⟩ v h (ix1 e) = v (ix2 0 e) :=
  shapeCast_apply v h (ix1 e) (ix2 0 e)
    (by rw [Shape.rowMajor_val_two, Shape.rowMajor_val_one]; show 0 * E + e.val = e.val; omega)

/-- Column k of an [E, D] table cut out as a column [E, 1]: entry (e, 0) is the table's (e, k). -/
theorem sliceCol_apply {E D : Nat} (k : Nat) (hk : k < D)
    (h : (⟨2, ![E, D]⟩ : Shape).Slices ![0, k] ⟨2, ![E, 1]⟩)
    (x : (⟨2, ![E, D]⟩ : Shape).Idx → α) (e : Fin E) :
    extractStridedSlice ⟨2, ![E, 1]⟩ ![0, k] x h (ix2 e 0) = x (ix2 e ⟨k, hk⟩) :=
  extractStridedSlice_apply ![0, k] x h (ix2 e 0) (ix2 e ⟨k, hk⟩) (fun a => match a with
    | ⟨0, _⟩ => by show e.val = 0 + e.val; omega
    | ⟨1, _⟩ => by show k = k + 0; omega)

/-- Row 0 of an [R, E] table cut out as a row [1, E]: entry (0, e) is the table's (0, e). -/
theorem sliceRow0_apply {R E : Nat} (hR : 0 < R)
    (h : (⟨2, ![R, E]⟩ : Shape).Slices ![0, 0] ⟨2, ![1, E]⟩)
    (x : (⟨2, ![R, E]⟩ : Shape).Idx → α) (e : Fin E) :
    extractStridedSlice ⟨2, ![1, E]⟩ ![0, 0] x h (ix2 0 e) = x (ix2 ⟨0, hR⟩ e) :=
  extractStridedSlice_apply ![0, 0] x h (ix2 0 e) (ix2 ⟨0, hR⟩ e) (fun a => match a with
    | ⟨0, _⟩ => by show 0 = 0 + 0; omega
    | ⟨1, _⟩ => by show e.val = 0 + e.val; omega)

/-- The vector of 16000000 entries laid out [125000, 128]: entry (r, l) is the vector's entry 128·r + l. -/
theorem reshape128_apply (h : S16000000.ShapeCasts S125000x128) (v : S16000000.Idx → α)
    (r : Fin 125000) (l : Fin 128) :
    shapeCast S125000x128 v h (ix2 r l) = v (ix1 (edgeAt r l)) :=
  shapeCast_apply v h (ix2 r l) (ix1 (edgeAt r l))
    (by rw [Shape.rowMajor_val_two, Shape.rowMajor_val_one]; show r.val * 128 + l.val = r.val * 128 + l.val; rfl)

end Layout

/-! ## The columns of the argument tables -/

/-- Column 0 of the edge table, as a vector, at edge e. -/
theorem col0_apply (x1 : FVec Ideal Spec.SEdge .f32) (e : Fin 16000000) :
    HostTerm.col0 (F := Ideal) x1 (ix1 e) = Spec.colA x1 e := by
  unfold HostTerm.col0
  exact (castCol_apply _ _ e).trans (sliceCol_apply 0 (by omega) _ x1 e)

/-- Column 0 of the vertex table at vertex n. -/
theorem vcol0_apply (x0 : FVec Ideal Spec.SVtx .f32) (n : Fin 500000) :
    HostTerm.vcol0 (F := Ideal) x0 (ix1 n) = x0 (ix2 n (0 : Fin 2)) := by
  unfold HostTerm.vcol0
  exact (castCol_apply _ _ n).trans (sliceCol_apply 0 (by omega) _ x0 n)

/-- Column 1 of the vertex table at vertex n. -/
theorem vcol1_apply (x0 : FVec Ideal Spec.SVtx .f32) (n : Fin 500000) :
    HostTerm.vcol1 (F := Ideal) x0 (ix1 n) = x0 (ix2 n (1 : Fin 2)) := by
  unfold HostTerm.vcol1
  exact (castCol_apply _ _ n).trans (sliceCol_apply 1 (by omega) _ x0 n)

/-- The vector of source words at edge e. -/
theorem srcv_apply (x2 : IVec Spec.SPair 32) (e : Fin 16000000) :
    HostTerm.srcv x2 (ix1 e) = Spec.src x2 e := by
  unfold HostTerm.srcv
  exact (castRow_apply _ _ e).trans (sliceRow0_apply (by omega) _ x2 e)

/-- The first launched array holds column 0 of the edge table. -/
theorem a2d_apply (x1 : FVec Ideal Spec.SEdge .f32) (r : Fin 125000) (l : Fin 128) :
    HostTerm.a2d (F := Ideal) x1 (ix2 r l) = Spec.colA x1 (edgeAt r l) := by
  unfold HostTerm.a2d
  rw [reshape128_apply, col0_apply]

/-! ## The lookup word and the test that it is a vertex -/

/-- The wrapped word at edge e is the specification's wrap of the source word. -/
theorem wrapped_apply (x2 : IVec Spec.SPair 32) (e : Fin 16000000) :
    HostTerm.wrapped x2 (ix1 e) = Spec.wrap (Spec.src x2 e) := by
  unfold HostTerm.wrapped
  rw [select_apply]
  show Scalar.select (IntOp.cmpi .slt (HostTerm.srcv x2 (ix1 e)) 0#32)
      (IntOp.addi (HostTerm.srcv x2 (ix1 e)) 500000#32) (HostTerm.srcv x2 (ix1 e)) = _
  rw [srcv_apply, wrap_select]
  rfl

/-- … and so is the column of start indices at (e, z). -/
theorem wrappedCol_apply (x2 : IVec Spec.SPair 32) (e : Fin 16000000) (z : Fin 1) :
    HostTerm.wrappedCol x2 (ix2 e z) = Spec.wrap (Spec.src x2 e) := by
  unfold HostTerm.wrappedCol
  rw [bcastCol_apply, wrapped_apply]

/-- A word in range is not wrapped. -/
theorem wrap_of_inRange (x2 : IVec Spec.SPair 32) (hR : Spec.InRange x2) (e : Fin 16000000) :
    Spec.wrap (Spec.src x2 e) = Spec.src x2 e := by
  obtain ⟨h0, _⟩ := hR e
  exact if_neg (by omega)

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- With every source word in range the test holds at every edge: 0 ≤ word and word ≤ 499999. -/
theorem inBounds_apply (x2 : IVec Spec.SPair 32) (hR : Spec.InRange x2) (e : Fin 16000000) :
    HostTerm.inBounds x2 (ix1 e) = 1#1 := by
  unfold HostTerm.inBounds
  rw [Host.reduce_eq_foldl]
  refine foldl_andi_one _ _ fun i _ => ?_
  obtain ⟨a, b, rfl⟩ : ∃ (a : Fin 16000000) (b : Fin 1), i = ix2 a b := ⟨i 0, i 1, eq_ix2 i⟩
  show IntOp.andi (IntOp.cmpi .sge (HostTerm.wrappedCol x2 (ix2 a b)) 0#32)
      (IntOp.cmpi .sle (HostTerm.wrappedCol x2 (ix2 a b)) 499999#32) = 1#1
  obtain ⟨h0, h1⟩ := hR a
  rw [wrappedCol_apply, wrap_of_inRange x2 hR]
  refine IntOp.andi_eq_one.mpr ⟨IntOp.cmpi_sge.mpr ?_, IntOp.cmpi_sle.mpr ?_⟩
  · show (0#32).toInt ≤ _
    rw [show (0#32).toInt = 0 from rfl]; exact h0
  · show _ ≤ (499999#32).toInt
    rw [show (499999#32).toInt = 499999 from rfl]; omega

/-! ## The lookup -/

/-- The rank-1 take of this program at edge e, with the start word of e named: the table at that word read signed
    and clamped into [0, 499999]. -/
theorem take_apply_of_eq {α : Type} (x : S500000.Idx → α) (idx : IVec S16000000x1 32) (e : Fin 16000000)
    (s : BitVec 32) (hs : idx (ix2 e 0) = s) :
    Host.gather gather_S500000_S16000000x1_S16000000_n_0_n_n_0_1_1 x idx (ix1 e)
      = x (ix1 ⟨min s.toInt.toNat (500000 - 1), by omega⟩) := by
  subst hs
  have hP : StableHlo.Predicate.ixP e = ix2 e 0 := by
    funext a; match a with | ⟨0, _⟩ => rfl | ⟨1, _⟩ => rfl
  have h := StableHlo.Predicate.gather_take gather_S500000_S16000000x1_S16000000_n_0_n_n_0_1_1 rfl rfl rfl rfl
    x idx e (by omega)
  have hF : ∀ {n : Nat} (p : Fin n), Shape.Idx.ofFin p = ix1 p := fun p => (Shape.Idx.eq_ofFin (ix1 p)).symm
  rw [hF, hF] at h
  rw [h]
  exact congrArg (fun p : Fin 500000 => x (ix1 p)) (Fin.ext (congrArg (fun j => min (idx j).toInt.toNat (500000 - 1)) hP))

/-- With every source word in range the looked-up array at edge e is the factor at the edge's vertex. -/
theorem taken_apply (x0 : FVec Ideal Spec.SVtx .f32) (x1 : FVec Ideal Spec.SEdge .f32) (x2 : IVec Spec.SPair 32)
    (hR : Spec.InRange x2) (e : Fin 16000000) :
    HostTerm.taken (F := Ideal) x0 x1 x2 (ix1 e) = HostTerm.facV (F := Ideal) x0 x1 x2 (ix1 (Spec.vtx x2 e)) := by
  unfold HostTerm.taken
  rw [select_apply, inBounds_apply x2 hR, select_one]
  exact take_apply_of_eq _ _ e _ (wrappedCol_apply x2 e 0)

/-! ## The per-vertex factor -/

/-- The host's negation at an index, on the extended reals. -/
theorem hostNegf_apply {s : Shape} {φ : FTy} (a : FVec Ideal s φ) (i : s.Idx) : Host.negf a i = -(a i) := rfl
/-- The host's quotient at an index, on the extended reals. -/
theorem hostDivf_apply {s : Shape} {φ : FTy} (a b : FVec Ideal s φ) (i : s.Idx) :
    Host.divf a b i = Ideal.div (a i) (b i) := rfl

/-- The comparison "equal" of two different extended reals is the bit 0. -/
theorem cmpf_oeq_of_ne (a b : Ideal .f32) (h : a ≠ b) : FloatOps.cmpf .oeq a b = 0#1 := by
  have e : FloatOps.cmpf .oeq a b = Ideal.cmp .oeq a b := rfl
  rw [e]
  simp [Ideal.cmp, h]

/-- Where the denominator is not zero the guarded denominator is the denominator itself. -/
theorem denomSafe_apply_of_ne (x1 : FVec Ideal Spec.SEdge .f32) (x2 : IVec Spec.SPair 32) (n : Fin 500000)
    (h : HostTerm.denom (F := Ideal) x1 x2 (ix1 n) ≠ 0) :
    HostTerm.denomSafe (F := Ideal) x1 x2 (ix1 n) = HostTerm.denom (F := Ideal) x1 x2 (ix1 n) := by
  unfold HostTerm.denomSafe
  rw [select_apply, cmpf_apply, bcastScalar_apply, constant_apply, Ideal.ofBits_zero_f32]
  rw [cmpf_oeq_of_ne _ _ h, select_zero]

/-- The factor at vertex n: −(1 − C n) · ((numerator / guarded denominator) / Aii n). -/
theorem facV_apply (x0 : FVec Ideal Spec.SVtx .f32) (x1 : FVec Ideal Spec.SEdge .f32) (x2 : IVec Spec.SPair 32)
    (n : Fin 500000) :
    HostTerm.facV (F := Ideal) x0 x1 x2 (ix1 n)
      = -(Spec.one - x0 (ix2 n (1 : Fin 2)))
        * Ideal.div (Ideal.div (HostTerm.numer (F := Ideal) x1 x2 (ix1 n)) (HostTerm.denomSafe (F := Ideal) x1 x2 (ix1 n)))
            (x0 (ix2 n (0 : Fin 2))) := by
  unfold HostTerm.facV HostTerm.alphaV
  rw [mulf_apply, hostNegf_apply, subf_apply, hostDivf_apply, hostDivf_apply, bcastScalar_apply, constant_apply,
    vcol1_apply, vcol0_apply]
  rfl

/-- The second holds, for words in range and nonzero denominators, the per-vertex factor at the edge's vertex. -/
theorem f2d_apply (x0 : FVec Ideal Spec.SVtx .f32) (x1 : FVec Ideal Spec.SEdge .f32) (x2 : IVec Spec.SPair 32)
    (hR : Spec.InRange x2) (hD : Spec.DenNZ x1 x2) (r : Fin 125000) (l : Fin 128) :
    HostTerm.f2d (F := Ideal) x0 x1 x2 (ix2 r l) = Spec.fac x0 x1 x2 (Spec.vtx x2 (edgeAt r l)) := by
  unfold HostTerm.f2d
  have hne : HostTerm.denom (F := Ideal) x1 x2 (ix1 (Spec.vtx x2 (edgeAt r l))) ≠ 0 := by
    rw [HostSums.denom_apply]; exact hD (edgeAt r l)
  rw [reshape128_apply, taken_apply x0 x1 x2 hR, facV_apply, denomSafe_apply_of_ne x1 x2 _ hne,
    HostSums.numer_apply, HostSums.denom_apply]
  rfl

end Cert.Hand.HostValue

end
-- ==== Proof.Bridge.lean ====
/-
  The second program's result is the specification's array. Its result vector is the reshape of the entrywise
  product of the two arrays its kernel region is launched on: entry e of the vector is entry (e / 128, e % 128) of
  that [125000, 128] array, the edge at that row and lane is e again, and there the first array holds A e and the
  second the per-vertex factor at the vertex of e — provided every source word is a vertex and the denominator's
  sum is nonzero at every looked-up vertex. A e times that factor is the specification's value at e by the one
  exchange of factors the two programs differ by.
-/
import proofs.«421623_j91096256348925_3_alg».proof.Proof.KernelFound
import proofs.«421623_j91096256348925_3_alg».proof.Proof.RegionRun
import proofs.«421623_j91096256348925_3_alg».proof.Proof.HostValue
import proofs.«421623_j91096256348925_3_alg».proof.Proof.Spec
import Idealize.ShloMosaic.Lib.Pipeline.Value

noncomputable section

namespace Cert.Hand.Bridge

open Idealize.ShloMosaic Idealize.ShloMosaic.ValueIdx Idealize.ShloMosaic.TcCoe Idealize.SL.Sem
open Cert.Hand Cert.KernelIdeal Cert.KernelIdeal.Gen

/-- Entry e of a [125000, 128] array laid out as a vector is the array's entry (e / 128, e % 128). -/
theorem flat_apply {α : Type} (A : S125000x128.Idx → α) (e : Fin 16000000) :
    shapeCast S16000000 A shapeCasts_S125000x128_S16000000 (ix1 e)
      = A (ix2 (⟨e.val / 128, by have := e.isLt; omega⟩ : Fin 125000) (⟨e.val % 128, by omega⟩ : Fin 128)) := by
  refine shapeCast_apply A shapeCasts_S125000x128_S16000000 (ix1 e) _ ?_
  rewrite [Shape.rowMajor_val_two, Shape.rowMajor_val_one]
  show e.val / 128 * 128 + e.val % 128 = e.val
  omega

/-- The edge at row e / 128, lane e % 128 is e. -/
theorem edgeAt_div_mod (e : Fin 16000000) :
    HostValue.edgeAt (⟨e.val / 128, by have := e.isLt; omega⟩ : Fin 125000) (⟨e.val % 128, by omega⟩ : Fin 128) = e :=
  Fin.ext (by show e.val / 128 * 128 + e.val % 128 = e.val; omega)

variable (m : (ℓ : Loc nD τ sig) → Buf (Elt Ideal) ℓ)

/-- THE SECOND PROGRAM'S RESULT IS `G` of its arguments, for source words in range and nonzero denominators. -/
theorem kernel_result (c : Dev nD)
    (hR : Spec.InRange (m ((c.tc : Thread nD τ).loc main_arg2)))
    (hD : Spec.DenNZ (m ((c.tc : Thread nD τ).loc main_arg1)) (m ((c.tc : Thread nD τ).loc main_arg2))) :
    shapeCast S16000000
        (RegionValue.prodOf (V m c (Pipeline.arrRef spec0 0)) (V m c (Pipeline.arrRef spec0 1)))
        shapeCasts_S125000x128_S16000000
      = Spec.G (m ((c.tc : Thread nD τ).loc main_arg0)) (m ((c.tc : Thread nD τ).loc main_arg1))
          (m ((c.tc : Thread nD τ).loc main_arg2)) := by
  have hA : V m c (Pipeline.arrRef spec0 0)
      = HostTerm.a2d (F := Ideal) (m ((c.tc : Thread nD τ).loc main_arg1)) := Found.found_a2d m c
  have hF : V m c (Pipeline.arrRef spec0 1)
      = HostTerm.f2d (F := Ideal) (m ((c.tc : Thread nD τ).loc main_arg0))
          (m ((c.tc : Thread nD τ).loc main_arg1)) (m ((c.tc : Thread nD τ).loc main_arg2)) := Found.found_f2d m c
  rw [hA, hF]
  funext i
  obtain ⟨e, rfl⟩ : ∃ e : Fin 16000000, i = ix1 e := ⟨i 0, eq_ix1 i⟩
  rw [flat_apply]
  show FloatOps.mulf (HostTerm.a2d (F := Ideal) _ (ix2 _ _)) (HostTerm.f2d (F := Ideal) _ _ _ (ix2 _ _)) = _
  rw [HostValue.a2d_apply, HostValue.f2d_apply _ _ _ hR hD, edgeAt_div_mod]
  exact Spec.Kval_eq_W _ _ _ e

end Cert.Hand.Bridge

end
-- ==== Proof.lean ====
/-
  Two programs compute, for every edge e of a graph with 500000 vertices and 16000000 edges,

      w e = (1 − C n) · (−A e · α n),   n = the source vertex of e,   α n = (Σ A / Σ A·S·v) / Aii n,

  the sums over the edges whose source word is n. The first program (plain host operations) computes it in this
  order. The second sums both A and A·S·v by ONE accumulating scatter of a two-column stack, replaces a zero
  denominator by 1, forms the per-vertex factor f n = −(1 − C n) · α n, looks f up at the source word (a lookup
  that answers a fill word for a word that is no vertex), and multiplies by A e in a kernel region over
  [125000, 128] tiles of 5000 rows.

  Over the extended reals the two agree wherever every source word is a vertex (outside that range the second
  program's lookup answers its fill word, the first clamps) and the denominator's sum is nonzero at every vertex
  an edge looks up (at a zero denominator the first program's quotient is ±∞ or junk, the second divides by 1):
  the precondition says both, and nothing else of it is used. Under them the guard and the fill never bind, and
  what is left is one exchange of factors, a · (−b · α) = b · (−a · α), valid on the extended reals without any
  finiteness.

  The pieces: the specification and that law (Spec); the first program's result is the specification's array
  (RefValue, over its generated run and per-operation reads); what the precondition says (PreDecode); the second
  program's host stages as pure functions (HostTerm), that its region finds them (KernelFound), their values at an
  index (HostSums, HostValue), the region's write-backs, cover and run (RegionPoint, RegionCover, RegionRun), and
  the join (Bridge). The frames of the two kernel programs are the generated ones; the first program's frame is its
  generated run with the result dropped; the idealization rewrote nothing, so there is nothing to preserve.
-/
import proofs.«421623_j91096256348925_3_alg».proof.Defs
import proofs.«421623_j91096256348925_3_alg».proof.Proof.Gen.Kernel
import proofs.«421623_j91096256348925_3_alg».proof.Proof.Gen.Kernel.Frame
import proofs.«421623_j91096256348925_3_alg».proof.Proof.Gen.KernelIdeal
import proofs.«421623_j91096256348925_3_alg».proof.Proof.Gen.KernelIdeal.Frame
import proofs.«421623_j91096256348925_3_alg».proof.Proof.Gen.ReferenceIdeal
import proofs.«421623_j91096256348925_3_alg».proof.Proof.Gen.ReferenceIdeal.Run
import proofs.«421623_j91096256348925_3_alg».proof.Proof.Gen.ReferenceIdeal.Read
import proofs.«421623_j91096256348925_3_alg».proof.Proof.Gen.Pre_finite_inputs
import proofs.«421623_j91096256348925_3_alg».proof.Proof.Spec
import proofs.«421623_j91096256348925_3_alg».proof.Proof.RefValue
import proofs.«421623_j91096256348925_3_alg».proof.Proof.PreDecode
import proofs.«421623_j91096256348925_3_alg».proof.Proof.RegionRun
import proofs.«421623_j91096256348925_3_alg».proof.Proof.Bridge

noncomputable section

namespace Cert.Proof

open Idealize.ShloMosaic Idealize.ShloMosaic.TcCoe Idealize.SL.Sem Cert.Hand

/-- The word-level kernel program runs and leaves its arguments: the generated frame. -/
theorem frame_kernel : Cert.frame_Kernel := fun m ρ _ => Cert.Kernel.Gen.frame m ρ

/-- The idealized kernel program runs and leaves its arguments: the generated frame. -/
theorem frame_kernelIdeal : Cert.frame_KernelIdeal := fun m ρ _ => Cert.KernelIdeal.Gen.frame m ρ

/-- The host program runs and leaves its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the specification's array of the (agreeing) arguments. -/
theorem algebraic : Cert.algebraic_KernelIdeal_ReferenceIdeal := by
  intro m ρ m' ρ' hpre hagree
  refine ⟨fun c => Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.RegionValue.run (F := Ideal) m ρ)
    obtain ⟨hR, hD⟩ := PreDecode.pre_decode _ _ _ (hpre c)
    exact Bridge.kernel_result m c hR hD
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v40_eq, RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
